-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x180 : Shape := ⟨3, ![4096, 64, 180]⟩
abbrev S64x64 : Shape := ⟨2, ![64, 64]⟩
abbrev S64x64x64 : Shape := ⟨3, ![64, 64, 64]⟩
abbrev S540x180 : Shape := ⟨2, ![540, 180]⟩
abbrev S540 : Shape := ⟨1, ![540]⟩
abbrev S225x6 : Shape := ⟨2, ![225, 6]⟩
abbrev S180x180 : Shape := ⟨2, ![180, 180]⟩
abbrev S180 : Shape := ⟨1, ![180]⟩
abbrev S_ : Shape := ⟨0, ![]⟩

class Facts : Prop where
  bcast_S_S4096x64x180 : S_.BroadcastsInDim S4096x64x180 (![] : Fin 0 → Fin S4096x64x180.rank)
  reducesTo_S4096x64x180_S_d0_1_2 : S4096x64x180.ReducesTo [0, 1, 2] S_
  h_S_ : 0 < S_.numel
  bcast_S_S64x64x64 : S_.BroadcastsInDim S64x64x64 (![] : Fin 0 → Fin S64x64x64.rank)
  reducesTo_S64x64x64_S_d0_1_2 : S64x64x64.ReducesTo [0, 1, 2] S_
  bcast_S_S540x180 : S_.BroadcastsInDim S540x180 (![] : Fin 0 → Fin S540x180.rank)
  reducesTo_S540x180_S_d0_1 : S540x180.ReducesTo [0, 1] S_
  bcast_S_S540 : S_.BroadcastsInDim S540 (![] : Fin 0 → Fin S540.rank)
  reducesTo_S540_S_d0 : S540.ReducesTo [0] S_
  bcast_S_S225x6 : S_.BroadcastsInDim S225x6 (![] : Fin 0 → Fin S225x6.rank)
  reducesTo_S225x6_S_d0_1 : S225x6.ReducesTo [0, 1] S_
  bcast_S_S180x180 : S_.BroadcastsInDim S180x180 (![] : Fin 0 → Fin S180x180.rank)
  reducesTo_S180x180_S_d0_1 : S180x180.ReducesTo [0, 1] S_
  bcast_S_S180 : S_.BroadcastsInDim S180 (![] : Fin 0 → Fin S180.rank)
  reducesTo_S180_S_d0 : S180.ReducesTo [0] S_

variable [Facts]

def fn_part1 {F : FTy → Type} [FloatOps F] (main_arg5 : FVec F S225x6 .f32) (main_arg6 : FVec F S180x180 .f32) (main_arg7 : FVec F S180 .f32) (main_v13 : IVec S_ 1) (main_v16 : IVec S540 1) : IVec S_ 1 :=
  let main_c_5 : IVec S_ 1 := constantI S_ 1 1#1
  let main_v17 : IVec S_ 1 := (fun x v => Host.reduce IntOp.andi x v reducesTo_S540_S_d0 h_S_) main_v16 main_c_5
  let main_v18 : IVec S_ 1 := andi main_v13 main_v17
  let main_v19 : FVec F S225x6 .f32 := Host.absf main_arg5
  let main_cst_6 : FVec F S_ .f32 := constant S_ .f32 0x7F800000#32
  let main_v20 : FVec F S225x6 .f32 := broadcastInDim S225x6 ![] bcast_S_S225x6 main_cst_6
  let main_v21 : IVec S225x6 1 := cmpf .olt main_v19 main_v20
  let main_c_7 : IVec S_ 1 := constantI S_ 1 1#1
  let main_v22 : IVec S_ 1 := (fun x v => Host.reduce IntOp.andi x v reducesTo_S225x6_S_d0_1 h_S_) main_v21 main_c_7
  let main_v23 : IVec S_ 1 := andi main_v18 main_v22
  let main_v24 : FVec F S180x180 .f32 := Host.absf main_arg6
  let main_cst_8 : FVec F S_ .f32 := constant S_ .f32 0x7F800000#32
  let main_v25 : FVec F S180x180 .f32 := broadcastInDim S180x180 ![] bcast_S_S180x180 main_cst_8
  let main_v26 : IVec S180x180 1 := cmpf .olt main_v24 main_v25
  let main_c_9 : IVec S_ 1 := constantI S_ 1 1#1
  let main_v27 : IVec S_ 1 := (fun x v => Host.reduce IntOp.andi x v reducesTo_S180x180_S_d0_1 h_S_) main_v26 main_c_9
  let main_v28 : IVec S_ 1 := andi main_v23 main_v27
  let main_v29 : FVec F S180 .f32 := Host.absf main_arg7
  let main_cst_10 : FVec F S_ .f32 := constant S_ .f32 0x7F800000#32
  let main_v30 : FVec F S180 .f32 := broadcastInDim S180 ![] bcast_S_S180 main_cst_10
  let main_v31 : IVec S180 1 := cmpf .olt main_v29 main_v30
  let main_c_11 : IVec S_ 1 := constantI S_ 1 1#1
  let main_v32 : IVec S_ 1 := (fun x v => Host.reduce IntOp.andi x v reducesTo_S180_S_d0 h_S_) main_v31 main_c_11
  let main_v33 : IVec S_ 1 := andi main_v28 main_v32
  main_v33

def fn {F : FTy → Type} [FloatOps F] (main_arg0 : FVec F S4096x64x180 .f32) (main_arg1 : IVec S64x64 32) (main_arg2 : FVec F S64x64x64 .f32) (main_arg3 : FVec F S540x180 .f32) (main_arg4 : FVec F S540 .f32) (main_arg5 : FVec F S225x6 .f32) (main_arg6 : FVec F S180x180 .f32) (main_arg7 : FVec F S180 .f32) : IVec S_ 1 :=
  let main_v0 : FVec F S4096x64x180 .f32 := Host.absf main_arg0
  let main_cst : FVec F S_ .f32 := constant S_ .f32 0x7F800000#32
  let main_v1 : FVec F S4096x64x180 .f32 := broadcastInDim S4096x64x180 ![] bcast_S_S4096x64x180 main_cst
  let main_v2 : IVec S4096x64x180 1 := cmpf .olt main_v0 main_v1
  let main_c : IVec S_ 1 := constantI S_ 1 1#1
  let main_v3 : IVec S_ 1 := (fun x v => Host.reduce IntOp.andi x v reducesTo_S4096x64x180_S_d0_1_2 h_S_) main_v2 main_c
  let main_v4 : FVec F S64x64x64 .f32 := Host.absf main_arg2
  let main_cst_0 : FVec F S_ .f32 := constant S_ .f32 0x7F800000#32
  let main_v5 : FVec F S64x64x64 .f32 := broadcastInDim S64x64x64 ![] bcast_S_S64x64x64 main_cst_0
  let main_v6 : IVec S64x64x64 1 := cmpf .olt main_v4 main_v5
  let main_c_1 : IVec S_ 1 := constantI S_ 1 1#1
  let main_v7 : IVec S_ 1 := (fun x v => Host.reduce IntOp.andi x v reducesTo_S64x64x64_S_d0_1_2 h_S_) main_v6 main_c_1
  let main_v8 : IVec S_ 1 := andi main_v3 main_v7
  let main_v9 : FVec F S540x180 .f32 := Host.absf main_arg3
  let main_cst_2 : FVec F S_ .f32 := constant S_ .f32 0x7F800000#32
  let main_v10 : FVec F S540x180 .f32 := broadcastInDim S540x180 ![] bcast_S_S540x180 main_cst_2
  let main_v11 : IVec S540x180 1 := cmpf .olt main_v9 main_v10
  let main_c_3 : IVec S_ 1 := constantI S_ 1 1#1
  let main_v12 : IVec S_ 1 := (fun x v => Host.reduce IntOp.andi x v reducesTo_S540x180_S_d0_1 h_S_) main_v11 main_c_3
  let main_v13 : IVec S_ 1 := andi main_v8 main_v12
  let main_v14 : FVec F S540 .f32 := Host.absf main_arg4
  let main_cst_4 : FVec F S_ .f32 := constant S_ .f32 0x7F800000#32
  let main_v15 : FVec F S540 .f32 := broadcastInDim S540 ![] bcast_S_S540 main_cst_4
  let main_v16 : IVec S540 1 := cmpf .olt main_v14 main_v15
  fn_part1 (F := F) main_arg5 main_arg6 main_arg7 main_v13 main_v16
-- ==== Kernel.lean ====
abbrev S4096x64x180 : Shape := ⟨3, ![4096, 64, 180]⟩
abbrev S64x64 : Shape := ⟨2, ![64, 64]⟩
abbrev S64x64x64 : Shape := ⟨3, ![64, 64, 64]⟩
abbrev S540x180 : Shape := ⟨2, ![540, 180]⟩
abbrev S540 : Shape := ⟨1, ![540]⟩
abbrev S225x6 : Shape := ⟨2, ![225, 6]⟩
abbrev S180x180 : Shape := ⟨2, ![180, 180]⟩
abbrev S180 : Shape := ⟨1, ![180]⟩
abbrev S4096 : Shape := ⟨1, ![4096]⟩
abbrev S_ : Shape := ⟨0, ![]⟩
abbrev S4096x1 : Shape := ⟨2, ![4096, 1]⟩
abbrev S4096x6 : Shape := ⟨2, ![4096, 6]⟩
abbrev S64x64x6 : Shape := ⟨3, ![64, 64, 6]⟩
abbrev S6x64x64 : Shape := ⟨3, ![6, 64, 64]⟩
abbrev S180x540 : Shape := ⟨2, ![180, 540]⟩
abbrev S1x540 : Shape := ⟨2, ![1, 540]⟩
abbrev S1x180 : Shape := ⟨2, ![1, 180]⟩
abbrev S32x64x180 : Shape := ⟨3, ![32, 64, 180]⟩
abbrev S32x64x64 : Shape := ⟨3, ![32, 64, 64]⟩
abbrev S2048x180 : Shape := ⟨2, ![2048, 180]⟩
abbrev S2048x540 : Shape := ⟨2, ![2048, 540]⟩
abbrev S2048x30 : Shape := ⟨2, ![2048, 30]⟩
abbrev S32x64x30 : Shape := ⟨3, ![32, 64, 30]⟩
abbrev S1x64x64 : Shape := ⟨3, ![1, 64, 64]⟩
abbrev S32x64 : Shape := ⟨2, ![32, 64]⟩
abbrev S32x64x1 : Shape := ⟨3, ![32, 64, 1]⟩

abbrev nBuf : Space → Nat
  | .hbm => 28
  | .vmem => 11
  | .smem => 0
  | _ => 0

abbrev bufTy : (tb : Table) → Fin (tcTables nBuf tb) → BufTy
  | .hbm, ⟨0, _⟩ => ⟨S4096x64x180, .f32⟩
  | .hbm, ⟨1, _⟩ => ⟨S64x64, .i32⟩
  | .hbm, ⟨2, _⟩ => ⟨S64x64x64, .f32⟩
  | .hbm, ⟨3, _⟩ => ⟨S540x180, .f32⟩
  | .hbm, ⟨4, _⟩ => ⟨S540, .f32⟩
  | .hbm, ⟨5, _⟩ => ⟨S225x6, .f32⟩
  | .hbm, ⟨6, _⟩ => ⟨S180x180, .f32⟩
  | .hbm, ⟨7, _⟩ => ⟨S180, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096x6, .f32⟩
  | .hbm, ⟨18, _⟩ => ⟨S64x64x6, .f32⟩
  | .hbm, ⟨19, _⟩ => ⟨S6x64x64, .f32⟩
  | .hbm, ⟨20, _⟩ => ⟨S180x540, .f32⟩
  | .hbm, ⟨21, _⟩ => ⟨S180x540, .bf16⟩
  | .hbm, ⟨22, _⟩ => ⟨S180x180, .f32⟩
  | .hbm, ⟨23, _⟩ => ⟨S180x180, .bf16⟩
  | .hbm, ⟨24, _⟩ => ⟨S1x540, .f32⟩
  | .hbm, ⟨25, _⟩ => ⟨S1x180, .f32⟩
  | .hbm, ⟨26, _⟩ => ⟨S4096x64x180, .bf16⟩
  | .hbm, ⟨27, _⟩ => ⟨S4096x64x180, .f32⟩
  | .local _ .vmem, ⟨0, _⟩ => ⟨S32x64x180, .bf16⟩
  | .local _ .vmem, ⟨1, _⟩ => ⟨S32x64x180, .bf16⟩
  | .local _ .vmem, ⟨2, _⟩ => ⟨S32x64x64, .f32⟩
  | .local _ .vmem, ⟨3, _⟩ => ⟨S32x64x64, .f32⟩
  | .local _ .vmem, ⟨4, _⟩ => ⟨S6x64x64, .f32⟩
  | .local _ .vmem, ⟨5, _⟩ => ⟨S180x540, .bf16⟩
  | .local _ .vmem, ⟨6, _⟩ => ⟨S1x540, .f32⟩
  | .local _ .vmem, ⟨7, _⟩ => ⟨S180x180, .bf16⟩
  | .local _ .vmem, ⟨8, _⟩ => ⟨S1x180, .f32⟩
  | .local _ .vmem, ⟨9, _⟩ => ⟨S32x64x180, .f32⟩
  | .local _ .vmem, ⟨10, _⟩ => ⟨S32x64x180, .f32⟩
  | _, _ => ⟨S4096x64x180, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x180 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S180x540 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x540 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S180x180 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x180 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x64x180 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x6_S64x64x6 : S4096x6.ShapeCasts S64x64x6
  transposes_S64x64x6_S6x64x64_2_0_1 : S64x64x6.Transposes [2, 0, 1] S6x64x64
  transposes_S540x180_S180x540_1_0 : S540x180.Transposes [1, 0] S180x540
  bitsLt_bf16_f32 : FTy.bits .bf16 < FTy.bits .f32
  transposes_S180x180_S180x180_1_0 : S180x180.Transposes [1, 0] S180x180
  shapeCasts_S540_S1x540 : S540.ShapeCasts S1x540
  shapeCasts_S180_S1x180 : S180.ShapeCasts S1x180
  inb_S32x64x180_S32x64x180_0_0_0 : ∀ a, (![0, 0, 0] : Fin 3 → Nat) a + S32x64x180.size a ≤ S32x64x180.size a
  h_S32x64x180 : 0 < S32x64x180.numel
  shapeCasts_S32x64x180_S32x64x180 : S32x64x180.ShapeCasts S32x64x180
  shapeCasts_S32x64x180_S2048x180 : S32x64x180.ShapeCasts S2048x180
  inb_S180x540_S180x540_0_0 : ∀ a, (![0, 0] : Fin 2 → Nat) a + S180x540.size a ≤ S180x540.size a
  h_S180x540 : 0 < S180x540.numel
  shapeCasts_S180x540_S180x540 : S180x540.ShapeCasts S180x540
  inb_S1x540_S1x540_0_0 : ∀ a, (![0, 0] : Fin 2 → Nat) a + S1x540.size a ≤ S1x540.size a
  h_S1x540 : 0 < S1x540.numel
  shapeCasts_S1x540_S540 : S1x540.ShapeCasts S540
  broadcasts_S1x540_S2048x540 : S1x540.Broadcasts S2048x540
  slices_S2048x540_o0_0_S2048x30 : S2048x540.Slices ![0, 0] S2048x30
  slices_S2048x540_o0_180_S2048x30 : S2048x540.Slices ![0, 180] S2048x30
  slices_S2048x540_o0_360_S2048x30 : S2048x540.Slices ![0, 360] S2048x30
  shapeCasts_S2048x30_S32x64x30 : S2048x30.ShapeCasts S32x64x30
  inb_S6x64x64_S1x64x64_0_0_0 : ∀ a, (![0, 0, 0] : Fin 3 → Nat) a + S1x64x64.size a ≤ S6x64x64.size a
  h_S1x64x64 : 0 < S1x64x64.numel
  shapeCasts_S1x64x64_S64x64 : S1x64x64.ShapeCasts S64x64
  shapeCasts_S64x64_S1x64x64 : S64x64.ShapeCasts S1x64x64
  broadcasts_S1x64x64_S32x64x64 : S1x64x64.Broadcasts S32x64x64
  inb_S32x64x64_S32x64x64_0_0_0 : ∀ a, (![0, 0, 0] : Fin 3 → Nat) a + S32x64x64.size a ≤ S32x64x64.size a
  h_S32x64x64 : 0 < S32x64x64.numel
  reduces_S32x64x64_S32x64 : S32x64x64.Reduces [2] S32x64
  shapeCasts_S32x64_S32x64x1 : S32x64.ShapeCasts S32x64x1
  broadcasts_S32x64x1_S32x64x64 : S32x64x1.Broadcasts S32x64x64
  slices_S2048x540_o0_30_S2048x30 : S2048x540.Slices ![0, 30] S2048x30
  slices_S2048x540_o0_210_S2048x30 : S2048x540.Slices ![0, 210] S2048x30
  slices_S2048x540_o0_390_S2048x30 : S2048x540.Slices ![0, 390] S2048x30
  inb_S6x64x64_S1x64x64_1_0_0 : ∀ a, (![1, 0, 0] : Fin 3 → Nat) a + S1x64x64.size a ≤ S6x64x64.size a
  slices_S2048x540_o0_60_S2048x30 : S2048x540.Slices ![0, 60] S2048x30
  slices_S2048x540_o0_240_S2048x30 : S2048x540.Slices ![0, 240] S2048x30
  slices_S2048x540_o0_420_S2048x30 : S2048x540.Slices ![0, 420] S2048x30
  inb_S6x64x64_S1x64x64_2_0_0 : ∀ a, (![2, 0, 0] : Fin 3 → Nat) a + S1x64x64.size a ≤ S6x64x64.size a
  slices_S2048x540_o0_90_S2048x30 : S2048x540.Slices ![0, 90] S2048x30
  slices_S2048x540_o0_270_S2048x30 : S2048x540.Slices ![0, 270] S2048x30
  slices_S2048x540_o0_450_S2048x30 : S2048x540.Slices ![0, 450] S2048x30
  inb_S6x64x64_S1x64x64_3_0_0 : ∀ a, (![3, 0, 0] : Fin 3 → Nat) a + S1x64x64.size a ≤ S6x64x64.size a
  slices_S2048x540_o0_120_S2048x30 : S2048x540.Slices ![0, 120] S2048x30
  slices_S2048x540_o0_300_S2048x30 : S2048x540.Slices ![0, 300] S2048x30
  slices_S2048x540_o0_480_S2048x30 : S2048x540.Slices ![0, 480] S2048x30
  inb_S6x64x64_S1x64x64_4_0_0 : ∀ a, (![4, 0, 0] : Fin 3 → Nat) a + S1x64x64.size a ≤ S6x64x64.size a
  slices_S2048x540_o0_150_S2048x30 : S2048x540.Slices ![0, 150] S2048x30
  slices_S2048x540_o0_330_S2048x30 : S2048x540.Slices ![0, 330] S2048x30
  slices_S2048x540_o0_510_S2048x30 : S2048x540.Slices ![0, 510] S2048x30
  inb_S6x64x64_S1x64x64_5_0_0 : ∀ a, (![5, 0, 0] : Fin 3 → Nat) a + S1x64x64.size a ≤ S6x64x64.size a
  concatenates_S32x64x30_S32x64x30_S32x64x30_S32x64x30_S32x64x30_S32x64x30_S32x64x180_d2 : Shape.Concatenates [S32x64x30, S32x64x30, S32x64x30, S32x64x30, S32x64x30, S32x64x30] S32x64x180 2
  inb_S180x180_S180x180_0_0 : ∀ a, (![0, 0] : Fin 2 → Nat) a + S180x180.size a ≤ S180x180.size a
  h_S180x180 : 0 < S180x180.numel
  shapeCasts_S180x180_S180x180 : S180x180.ShapeCasts S180x180
  inb_S1x180_S1x180_0_0 : ∀ a, (![0, 0] : Fin 2 → Nat) a + S1x180.size a ≤ S1x180.size a
  h_S1x180 : 0 < S1x180.numel
  shapeCasts_S1x180_S180 : S1x180.ShapeCasts S180
  broadcasts_S1x180_S2048x180 : S1x180.Broadcasts S2048x180
  shapeCasts_S2048x180_S32x64x180 : S2048x180.ShapeCasts S32x64x180
  gather_S225x6_S4096x1_S4096x6_1_0_n_n_0_1_16_wf : GatherDims.WF S225x6 S4096x1 S4096x6 [1] [0] [] [0] [] 1 ![1, 6]
  dot_S2048x180_S180x540_S2048x540_1_0_0_1_n_n_wf : DotDims.WF S2048x180 S180x540 S2048x540 [1] [0] [0] [1] [] []
  dot_S32x64x30_S32x64x30_S32x64x64_2_2_1_1_0_0_wf : DotDims.WF S32x64x30 S32x64x30 S32x64x64 [2] [2] [1] [1] [0] [0]
  dot_S32x64x64_S32x64x30_S32x64x30_2_1_1_2_0_0_wf : DotDims.WF S32x64x64 S32x64x30 S32x64x30 [2] [1] [1] [2] [0] [0]
  dot_S2048x180_S180x180_S2048x180_1_0_0_1_n_n_wf : DotDims.WF S2048x180 S180x180 S2048x180 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x180.size a ≤ S4096x64x180.size a
  hwx0_0 : ∀ i : grid0.Coords, EltTy.bits .bf16 = 32 ∨ (Rect.block (s := S4096x64x180) S32x64x180.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x64.size a ≤ S64x64x64.size a
  hwx0_1 : ∀ i : grid0.Coords, EltTy.bits .f32 = 32 ∨ (Rect.block (s := S64x64x64) S32x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x64x64.size a ≤ S6x64x64.size a
  hwx0_2 : ∀ i : grid0.Coords, EltTy.bits .f32 = 32 ∨ (Rect.block (s := S6x64x64) S6x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S180x540.size a ≤ S180x540.size a
  hwx0_3 : ∀ i : grid0.Coords, EltTy.bits .bf16 = 32 ∨ (Rect.block (s := S180x540) S180x540.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x540.size a ≤ S1x540.size a
  hwx0_4 : ∀ i : grid0.Coords, EltTy.bits .f32 = 32 ∨ (Rect.block (s := S1x540) S1x540.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S180x180.size a ≤ S180x180.size a
  hwx0_5 : ∀ i : grid0.Coords, EltTy.bits .bf16 = 32 ∨ (Rect.block (s := S180x180) S180x180.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x180.size a ≤ S1x180.size a
  hwx0_6 : ∀ i : grid0.Coords, EltTy.bits .f32 = 32 ∨ (Rect.block (s := S1x180) S1x180.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x64x180.size a ≤ S4096x64x180.size a
  hwx0_7 : ∀ i : grid0.Coords, EltTy.bits .f32 = 32 ∨ (Rect.block (s := S4096x64x180) S32x64x180.size (cc0_transform_7 i) (hinb0_7 i)).WholeWords (EltTy.packing .f32)

variable [Facts₀]

def gather_S225x6_S4096x1_S4096x6_1_0_n_n_0_1_16 : GatherDims S225x6 S4096x1 S4096x6 where
  offsetDims := [1]
  collapsedSliceDims := [0]
  operandBatchingDims := []
  startIndicesBatchingDims := []
  startIndexMap := [0]
  indexVectorDim := 1
  sliceSizes := ![1, 6]
  wf := gather_S225x6_S4096x1_S4096x6_1_0_n_n_0_1_16_wf
def dot_S2048x180_S180x540_S2048x540_1_0_0_1_n_n : DotDims S2048x180 S180x540 S2048x540 where
  lhsContracting := [1]
  rhsContracting := [0]
  lhsNonContracting := [0]
  rhsNonContracting := [1]
  lhsBatch := []
  rhsBatch := []
  wf := dot_S2048x180_S180x540_S2048x540_1_0_0_1_n_n_wf
def dot_S32x64x30_S32x64x30_S32x64x64_2_2_1_1_0_0 : DotDims S32x64x30 S32x64x30 S32x64x64 where
  lhsContracting := [2]
  rhsContracting := [2]
  lhsNonContracting := [1]
  rhsNonContracting := [1]
  lhsBatch := [0]
  rhsBatch := [0]
  wf := dot_S32x64x30_S32x64x30_S32x64x64_2_2_1_1_0_0_wf
def dot_S32x64x64_S32x64x30_S32x64x30_2_1_1_2_0_0 : DotDims S32x64x64 S32x64x30 S32x64x30 where
  lhsContracting := [2]
  rhsContracting := [1]
  lhsNonContracting := [1]
  rhsNonContracting := [2]
  lhsBatch := [0]
  rhsBatch := [0]
  wf := dot_S32x64x64_S32x64x30_S32x64x30_2_1_1_2_0_0_wf
def dot_S2048x180_S180x180_S2048x180_1_0_0_1_n_n : DotDims S2048x180 S180x180 S2048x180 where
  lhsContracting := [1]
  rhsContracting := [0]
  lhsNonContracting := [0]
  rhsNonContracting := [1]
  lhsBatch := []
  rhsBatch := []
  wf := dot_S2048x180_S180x180_S2048x180_1_0_0_1_n_n_wf

abbrev win0_0 : Pipeline.Window sig grid0 :=
  Pipeline.Window.ofSpec (Memref.whole main_v16) S32x64x180.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S6x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S180x540.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x540.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S180x180.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x180.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S32x64x180.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x64x180 : Shape := ⟨3, ![4096, 64, 180]⟩
abbrev S64x64 : Shape := ⟨2, ![64, 64]⟩
abbrev S64x64x64 : Shape := ⟨3, ![64, 64, 64]⟩
abbrev S540x180 : Shape := ⟨2, ![540, 180]⟩
abbrev S540 : Shape := ⟨1, ![540]⟩
abbrev S225x6 : Shape := ⟨2, ![225, 6]⟩
abbrev S180x180 : Shape := ⟨2, ![180, 180]⟩
abbrev S180 : Shape := ⟨1, ![180]⟩
abbrev S4096x64x540 : Shape := ⟨3, ![4096, 64, 540]⟩
abbrev S1x1x540 : Shape := ⟨3, ![1, 1, 540]⟩
abbrev S4096x64x3x6x30 : Shape := ⟨5, ![4096, 64, 3, 6, 30]⟩
abbrev S4096x64x1x6x30 : Shape := ⟨5, ![4096, 64, 1, 6, 30]⟩
abbrev S4096x64x6x30 : Shape := ⟨4, ![4096, 64, 6, 30]⟩
abbrev S4096x6x64x30 : Shape := ⟨4, ![4096, 6, 64, 30]⟩
abbrev S_ : Shape := ⟨0, ![]⟩
abbrev S4096x6x64x64 : Shape := ⟨4, ![4096, 6, 64, 64]⟩
abbrev S4096 : Shape := ⟨1, ![4096]⟩
abbrev S4096x1 : Shape := ⟨2, ![4096, 1]⟩
abbrev S4096x6 : Shape := ⟨2, ![4096, 6]⟩
abbrev S64x64x6 : Shape := ⟨3, ![64, 64, 6]⟩
abbrev S6x64x64 : Shape := ⟨3, ![6, 64, 64]⟩
abbrev S1x6x64x64 : Shape := ⟨4, ![1, 6, 64, 64]⟩
abbrev S64x64x6x64x64 : Shape := ⟨5, ![64, 64, 6, 64, 64]⟩
abbrev S1x64x1x64x64 : Shape := ⟨5, ![1, 64, 1, 64, 64]⟩
abbrev S4096x6x64 : Shape := ⟨3, ![4096, 6, 64]⟩
abbrev S4096x6x64x1 : Shape := ⟨4, ![4096, 6, 64, 1]⟩
abbrev S4096x6x30x64 : Shape := ⟨4, ![4096, 6, 30, 64]⟩
abbrev S1x1x180 : Shape := ⟨3, ![1, 1, 180]⟩

abbrev nBuf : Space → Nat
  | .hbm => 67
  | .vmem => 0
  | .smem => 0
  | _ => 0

abbrev bufTy : (tb : Table) → Fin (tcTables nBuf tb) → BufTy
  | .hbm, ⟨0, _⟩ => ⟨S4096x64x180, .f32⟩
  | .hbm, ⟨1, _⟩ => ⟨S64x64, .i32⟩
  | .hbm, ⟨2, _⟩ => ⟨S64x64x64, .f32⟩
  | .hbm, ⟨3, _⟩ => ⟨S540x180, .f32⟩
  | .hbm, ⟨4, _⟩ => ⟨S540, .f32⟩
  | .hbm, ⟨5, _⟩ => ⟨S225x6, .f32⟩
  | .hbm, ⟨6, _⟩ => ⟨S180x180, .f32⟩
  | .hbm, ⟨7, _⟩ => ⟨S180, .f32⟩
  | .hbm, ⟨8, _⟩ => ⟨S4096x64x540, .f32⟩
  | .hbm, ⟨9, _⟩ => ⟨S1x1x540, .f32⟩
  | .hbm, ⟨10, _⟩ => ⟨S4096x64x540, .f32⟩
  | .hbm, ⟨11, _⟩ => ⟨S4096x64x540, .f32⟩
  | .hbm, ⟨12, _⟩ => ⟨S4096x64x3x6x30, .f32⟩
  | .hbm, ⟨13, _⟩ => ⟨S4096x64x1x6x30, .f32⟩
  | .hbm, ⟨14, _⟩ => ⟨S4096x64x6x30, .f32⟩
  | .hbm, ⟨15, _⟩ => ⟨S4096x6x64x30, .f32⟩
  | .hbm, ⟨16, _⟩ => ⟨S_, .f32⟩
  | .hbm, ⟨17, _⟩ => ⟨S4096x6x64x30, .f32⟩
  | .hbm, ⟨18, _⟩ => ⟨S4096x6x64x30, .f32⟩
  | .hbm, ⟨19, _⟩ => ⟨S4096x64x1x6x30, .f32⟩
  | .hbm, ⟨20, _⟩ => ⟨S4096x64x6x30, .f32⟩
  | .hbm, ⟨21, _⟩ => ⟨S4096x6x64x30, .f32⟩
  | .hbm, ⟨22, _⟩ => ⟨S4096x64x1x6x30, .f32⟩
  | .hbm, ⟨23, _⟩ => ⟨S4096x64x6x30, .f32⟩
  | .hbm, ⟨24, _⟩ => ⟨S4096x6x64x30, .f32⟩
  | .hbm, ⟨25, _⟩ => ⟨S4096x6x64x64, .f32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x6, .f32⟩
  | .hbm, ⟨36, _⟩ => ⟨S64x64x6, .f32⟩
  | .hbm, ⟨37, _⟩ => ⟨S6x64x64, .f32⟩
  | .hbm, ⟨38, _⟩ => ⟨S1x6x64x64, .f32⟩
  | .hbm, ⟨39, _⟩ => ⟨S4096x6x64x64, .f32⟩
  | .hbm, ⟨40, _⟩ => ⟨S4096x6x64x64, .f32⟩
  | .hbm, ⟨41, _⟩ => ⟨S64x64x6x64x64, .f32⟩
  | .hbm, ⟨42, _⟩ => ⟨S1x64x1x64x64, .f32⟩
  | .hbm, ⟨43, _⟩ => ⟨S64x64x6x64x64, .f32⟩
  | .hbm, ⟨44, _⟩ => ⟨S64x64x6x64x64, .f32⟩
  | .hbm, ⟨45, _⟩ => ⟨S4096x6x64x64, .f32⟩
  | .hbm, ⟨46, _⟩ => ⟨S_, .f32⟩
  | .hbm, ⟨47, _⟩ => ⟨S4096x6x64, .f32⟩
  | .hbm, ⟨48, _⟩ => ⟨S_, .f32⟩
  | .hbm, ⟨49, _⟩ => ⟨S4096x6x64, .f32⟩
  | .hbm, ⟨50, _⟩ => ⟨S4096x6x64, .f32⟩
  | .hbm, ⟨51, _⟩ => ⟨S4096x6x64x1, .f32⟩
  | .hbm, ⟨52, _⟩ => ⟨S4096x6x64x64, .f32⟩
  | .hbm, ⟨53, _⟩ => ⟨S4096x6x64x64, .f32⟩
  | .hbm, ⟨54, _⟩ => ⟨S4096x6x64x64, .f32⟩
  | .hbm, ⟨55, _⟩ => ⟨S_, .f32⟩
  | .hbm, ⟨56, _⟩ => ⟨S4096x6x64, .f32⟩
  | .hbm, ⟨57, _⟩ => ⟨S4096x6x64x1, .f32⟩
  | .hbm, ⟨58, _⟩ => ⟨S4096x6x64x64, .f32⟩
  | .hbm, ⟨59, _⟩ => ⟨S4096x6x64x64, .f32⟩
  | .hbm, ⟨60, _⟩ => ⟨S4096x6x30x64, .f32⟩
  | .hbm, ⟨61, _⟩ => ⟨S4096x64x6x30, .f32⟩
  | .hbm, ⟨62, _⟩ => ⟨S4096x64x180, .f32⟩
  | .hbm, ⟨63, _⟩ => ⟨S4096x64x180, .f32⟩
  | .hbm, ⟨64, _⟩ => ⟨S1x1x180, .f32⟩
  | .hbm, ⟨65, _⟩ => ⟨S4096x64x180, .f32⟩
  | .hbm, ⟨66, _⟩ => ⟨S4096x64x180, .f32⟩
  | _, _ => ⟨S4096x64x180, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]

class Facts₀ : Prop where
  bcast_S540_S1x1x540_2 : S540.BroadcastsInDim S1x1x540 (![2] : Fin 1 → Fin S1x1x540.rank)
  bcast_S1x1x540_S4096x64x540_0_1_2 : S1x1x540.BroadcastsInDim S4096x64x540 (![0, 1, 2] : Fin 3 → Fin S4096x64x540.rank)
  shapeCasts_S4096x64x540_S4096x64x3x6x30 : S4096x64x540.ShapeCasts S4096x64x3x6x30
  slices_S4096x64x3x6x30_S4096x64x1x6x30_0_0_0_0_0 : S4096x64x3x6x30.Slices ![0, 0, 0, 0, 0] S4096x64x1x6x30
  shapeCasts_S4096x64x1x6x30_S4096x64x6x30 : S4096x64x1x6x30.ShapeCasts S4096x64x6x30
  transposes_S4096x64x6x30_S4096x6x64x30_0_2_1_3 : S4096x64x6x30.Transposes [0, 2, 1, 3] S4096x6x64x30
  bcast_S_S4096x6x64x30 : S_.BroadcastsInDim S4096x6x64x30 (![] : Fin 0 → Fin S4096x6x64x30.rank)
  slices_S4096x64x3x6x30_S4096x64x1x6x30_0_0_1_0_0 : S4096x64x3x6x30.Slices ![0, 0, 1, 0, 0] S4096x64x1x6x30
  slices_S4096x64x3x6x30_S4096x64x1x6x30_0_0_2_0_0 : S4096x64x3x6x30.Slices ![0, 0, 2, 0, 0] S4096x64x1x6x30
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x6_S64x64x6 : S4096x6.ShapeCasts S64x64x6
  transposes_S64x64x6_S6x64x64_2_0_1 : S64x64x6.Transposes [2, 0, 1] S6x64x64
  bcast_S6x64x64_S1x6x64x64_1_2_3 : S6x64x64.BroadcastsInDim S1x6x64x64 (![1, 2, 3] : Fin 3 → Fin S1x6x64x64.rank)
  bcast_S1x6x64x64_S4096x6x64x64_0_1_2_3 : S1x6x64x64.BroadcastsInDim S4096x6x64x64 (![0, 1, 2, 3] : Fin 4 → Fin S4096x6x64x64.rank)
  shapeCasts_S4096x6x64x64_S64x64x6x64x64 : S4096x6x64x64.ShapeCasts S64x64x6x64x64
  bcast_S64x64x64_S1x64x1x64x64_1_3_4 : S64x64x64.BroadcastsInDim S1x64x1x64x64 (![1, 3, 4] : Fin 3 → Fin S1x64x1x64x64.rank)
  bcast_S1x64x1x64x64_S64x64x6x64x64_0_1_2_3_4 : S1x64x1x64x64.BroadcastsInDim S64x64x6x64x64 (![0, 1, 2, 3, 4] : Fin 5 → Fin S64x64x6x64x64.rank)
  shapeCasts_S64x64x6x64x64_S4096x6x64x64 : S64x64x6x64x64.ShapeCasts S4096x6x64x64
  reducesTo_S4096x6x64x64_S4096x6x64_d3 : S4096x6x64x64.ReducesTo [3] S4096x6x64
  h_S_ : 0 < S_.numel
  bcast_S_S4096x6x64 : S_.BroadcastsInDim S4096x6x64 (![] : Fin 0 → Fin S4096x6x64.rank)
  bcast_S4096x6x64_S4096x6x64x1_0_1_2 : S4096x6x64.BroadcastsInDim S4096x6x64x1 (![0, 1, 2] : Fin 3 → Fin S4096x6x64x1.rank)
  bcast_S4096x6x64x1_S4096x6x64x64_0_1_2_3 : S4096x6x64x1.BroadcastsInDim S4096x6x64x64 (![0, 1, 2, 3] : Fin 4 → Fin S4096x6x64x64.rank)
  transposes_S4096x6x30x64_S4096x64x6x30_0_3_1_2 : S4096x6x30x64.Transposes [0, 3, 1, 2] S4096x64x6x30
  shapeCasts_S4096x64x6x30_S4096x64x180 : S4096x64x6x30.ShapeCasts S4096x64x180
  bcast_S180_S1x1x180_2 : S180.BroadcastsInDim S1x1x180 (![2] : Fin 1 → Fin S1x1x180.rank)
  bcast_S1x1x180_S4096x64x180_0_1_2 : S1x1x180.BroadcastsInDim S4096x64x180 (![0, 1, 2] : Fin 3 → Fin S4096x64x180.rank)
  dot_S4096x64x180_S540x180_S4096x64x540_2_1_01_0_n_n_wf : DotDims.WF S4096x64x180 S540x180 S4096x64x540 [2] [1] [0, 1] [0] [] []
  dot_S4096x6x64x30_S4096x6x64x30_S4096x6x64x64_3_3_2_2_01_01_wf : DotDims.WF S4096x6x64x30 S4096x6x64x30 S4096x6x64x64 [3] [3] [2] [2] [0, 1] [0, 1]
  gather_S225x6_S4096x1_S4096x6_1_0_n_n_0_1_16_wf : GatherDims.WF S225x6 S4096x1 S4096x6 [1] [0] [] [0] [] 1 ![1, 6]
  dot_S4096x6x64x30_S4096x6x64x64_S4096x6x30x64_2_3_3_2_01_01_wf : DotDims.WF S4096x6x64x30 S4096x6x64x64 S4096x6x30x64 [2] [3] [3] [2] [0, 1] [0, 1]
  dot_S4096x64x180_S180x180_S4096x64x180_2_1_01_0_n_n_wf : DotDims.WF S4096x64x180 S180x180 S4096x64x180 [2] [1] [0, 1] [0] [] []

variable [Facts₀]

def dot_S4096x64x180_S540x180_S4096x64x540_2_1_01_0_n_n : DotDims S4096x64x180 S540x180 S4096x64x540 where
  lhsContracting := [2]
  rhsContracting := [1]
  lhsNonContracting := [0, 1]
  rhsNonContracting := [0]
  lhsBatch := []
  rhsBatch := []
  wf := dot_S4096x64x180_S540x180_S4096x64x540_2_1_01_0_n_n_wf
def dot_S4096x6x64x30_S4096x6x64x30_S4096x6x64x64_3_3_2_2_01_01 : DotDims S4096x6x64x30 S4096x6x64x30 S4096x6x64x64 where
  lhsContracting := [3]
  rhsContracting := [3]
  lhsNonContracting := [2]
  rhsNonContracting := [2]
  lhsBatch := [0, 1]
  rhsBatch := [0, 1]
  wf := dot_S4096x6x64x30_S4096x6x64x30_S4096x6x64x64_3_3_2_2_01_01_wf
def gather_S225x6_S4096x1_S4096x6_1_0_n_n_0_1_16 : GatherDims S225x6 S4096x1 S4096x6 where
  offsetDims := [1]
  collapsedSliceDims := [0]
  operandBatchingDims := []
  startIndicesBatchingDims := []
  startIndexMap := [0]
  indexVectorDim := 1
  sliceSizes := ![1, 6]
  wf := gather_S225x6_S4096x1_S4096x6_1_0_n_n_0_1_16_wf
def dot_S4096x6x64x30_S4096x6x64x64_S4096x6x30x64_2_3_3_2_01_01 : DotDims S4096x6x64x30 S4096x6x64x64 S4096x6x30x64 where
  lhsContracting := [2]
  rhsContracting := [3]
  lhsNonContracting := [3]
  rhsNonContracting := [2]
  lhsBatch := [0, 1]
  rhsBatch := [0, 1]
  wf := dot_S4096x6x64x30_S4096x6x64x64_S4096x6x30x64_2_3_3_2_01_01_wf
def dot_S4096x64x180_S180x180_S4096x64x180_2_1_01_0_n_n : DotDims S4096x64x180 S180x180 S4096x64x180 where
  lhsContracting := [2]
  rhsContracting := [1]
  lhsNonContracting := [0, 1]
  rhsNonContracting := [0]
  lhsBatch := []
  rhsBatch := []
  wf := dot_S4096x64x180_S180x180_S4096x64x180_2_1_01_0_n_n_wf

class Facts : Prop extends Facts₀ where

variable [Facts]
-- ==== Proof.Spec.lean ====
/-
  One attention window as formulas over the extended reals.

  A window holds 64 tokens of 180 channels.  Its fused projection `proj` has 540 columns: column
  `col s h d` is lane `d` of head `h` of the query (s = 0), key (s = 1) or value (s = 2) part.  For each of
  the 6 heads the logits are the scaled query-key products plus the head's relative-position bias plus the
  window's mask; a row of logits is turned into weights by subtracting the row maximum, exponentiating and
  dividing by the row's sum; the weights mix the value lanes; the 6 heads' 30 lanes side by side are the
  180 channels that the output projection multiplies.

  Everything is a finite sum, a maximum, `Ideal.exp` and `Ideal.div`: no law beyond re-indexing a sum is
  needed to compare two programs that both compute this, so no finiteness is assumed anywhere.
-/
import Idealize.ShloMosaic.PureOps.Ideal
import Mathlib.Data.Finset.Fold

noncomputable section

namespace Attn

open Idealize.ShloMosaic

/-- The scale 1/sqrt(30) as both programs spell it: one f32 word. -/
abbrev scaleQ : EReal := Ideal.ofBits .f32 0x3E3AF4BA#32

/-- The value a row maximum starts from: the f32 word of minus infinity. -/
abbrev negInf : EReal := Ideal.ofBits .f32 0xFF800000#32

/-- Column of the fused projection: part `s` (query, key, value), head `h`, lane `d`. -/
def col (s : Fin 3) (h : Fin 6) (d : Fin 30) : Fin 540 :=
  ⟨180 * s.val + 30 * h.val + d.val, by have := s.isLt; have := h.isLt; have := d.isLt; omega⟩

theorem col_val (s : Fin 3) (h : Fin 6) (d : Fin 30) : (col s h d).val = 180 * s.val + 30 * h.val + d.val := rfl

/-- Row `64 w + n` of a block of 32 windows laid out as 2048 rows. -/
def row (w : Fin 32) (n : Fin 64) : Fin 2048 := ⟨64 * w.val + n.val, by have := w.isLt; have := n.isLt; omega⟩

theorem row_val (w : Fin 32) (n : Fin 64) : (row w n).val = 64 * w.val + n.val := rfl

/-- Window `b` of 4096 uses mask `b mod 64`. -/
def wmod (b : Fin 4096) : Fin 64 := ⟨b.val % 64, Nat.mod_lt _ (by decide)⟩

theorem wmod_val (b : Fin 4096) : (wmod b).val = b.val % 64 := rfl

/-- Head and lane of a channel. -/
def chHead (c : Fin 180) : Fin 6 := ⟨c.val / 30, by have := c.isLt; omega⟩
def chLane (c : Fin 180) : Fin 30 := ⟨c.val % 30, Nat.mod_lt _ (by decide)⟩

theorem chHead_val (c : Fin 180) : (chHead c).val = c.val / 30 := rfl
theorem chLane_val (c : Fin 180) : (chLane c).val = c.val % 30 := rfl

/-- Row `n`, column `j` of the fused projection of a window `xw` by weights `wq` (stored column by row) and bias `bq`. -/
def proj (xw : Fin 64 → Fin 180 → EReal) (wq : Fin 540 → Fin 180 → EReal) (bq : Fin 540 → EReal)
    (n : Fin 64) (j : Fin 540) : EReal :=
  (∑ c : Fin 180, xw n c * wq j c) + bq j

/-- One head's logit of query token `q` against key token `k`: the scaled query lanes `cq` of row `q` times the
    key lanes `ck` of row `k`, plus the head's bias `bh`, plus the window's mask `mw`. -/
def logit (Q : Fin 64 → Fin 540 → EReal) (bh mw : Fin 64 → Fin 64 → EReal) (sc : EReal)
    (cq ck : Fin 30 → Fin 540) (q k : Fin 64) : EReal :=
  ((∑ d : Fin 30, (Q q (cq d) * sc) * Q k (ck d)) + bh q k) + mw q k

/-- The maximum of a row of 64 logits, folded from `ninf`. -/
def rowMax (ninf : EReal) (s : Fin 64 → EReal) : EReal :=
  (Finset.univ : Finset (Fin 64)).fold max ninf s

/-- Softmax weight of key `k` in row `q` of the logits `s`. -/
def soft (ninf : EReal) (s : Fin 64 → Fin 64 → EReal) (q k : Fin 64) : EReal :=
  Ideal.div (Ideal.exp (s q k - rowMax ninf (s q)))
    (∑ k' : Fin 64, Ideal.exp (s q k' - rowMax ninf (s q)))

/-- Token `n`'s lane `d` of one head: the weights `P n ·` mixing the value lanes `cv` of every row. -/
def mix (P : Fin 64 → Fin 64 → EReal) (Q : Fin 64 → Fin 540 → EReal) (cv : Fin 30 → Fin 540)
    (n : Fin 64) (d : Fin 30) : EReal :=
  ∑ k : Fin 64, P n k * Q k (cv d)

/-- Head `h` of a window whose fused projection is `Q`. -/
def headOut (Q : Fin 64 → Fin 540 → EReal) (bias : Fin 6 → Fin 64 → Fin 64 → EReal) (mw : Fin 64 → Fin 64 → EReal)
    (sc ninf : EReal) (h : Fin 6) (n : Fin 64) (d : Fin 30) : EReal :=
  mix (soft ninf (logit Q (bias h) mw sc (col 0 h) (col 1 h))) Q (col 2 h) n d

/-- The window's result at token `n`, output channel `o`. -/
def outW (xw : Fin 64 → Fin 180 → EReal) (mw : Fin 64 → Fin 64 → EReal)
    (wq : Fin 540 → Fin 180 → EReal) (bq : Fin 540 → EReal) (bias : Fin 6 → Fin 64 → Fin 64 → EReal)
    (wp : Fin 180 → Fin 180 → EReal) (bp : Fin 180 → EReal) (sc ninf : EReal) (n : Fin 64) (o : Fin 180) : EReal :=
  (∑ c : Fin 180, headOut (proj xw wq bq) bias mw sc ninf (chHead c) n (chLane c) * wp o c) + bp o

/-- Folding `max` from `b` never falls below `b`: taking the maximum with `b` once more changes nothing. -/
theorem max_rowMax (ninf : EReal) (s : Fin 64 → EReal) : max ninf (rowMax ninf s) = rowMax ninf s :=
  max_eq_right ((Finset.le_fold_max ninf).mpr (Or.inl le_rfl))

end Attn

end
-- ==== Proof.SpecArr.lean ====
/-
  The whole result array as ONE function of the program's arguments: entry (b, n, o) is window b's
  `Attn.outW` of the activations' window b, the mask of window `b mod 64`, the two weight matrices, the two
  bias vectors and the relative-position bias array.
-/
import proofs.«411040_j36610301231822_3_alg».proof.Proof.Spec
import Idealize.ShloMosaic.Lib.ValueIdx

noncomputable section

namespace Attn

open Idealize.ShloMosaic Idealize.ShloMosaic.ValueIdx

/-- Entry (b, n, o) of the result. -/
def gAt (x0 : (⟨3, ![4096, 64, 180]⟩ : Shape).Idx → EReal) (x2 : (⟨3, ![64, 64, 64]⟩ : Shape).Idx → EReal)
    (x3 : (⟨2, ![540, 180]⟩ : Shape).Idx → EReal) (x4 : (⟨1, ![540]⟩ : Shape).Idx → EReal)
    (bias : (⟨3, ![6, 64, 64]⟩ : Shape).Idx → EReal)
    (x6 : (⟨2, ![180, 180]⟩ : Shape).Idx → EReal) (x7 : (⟨1, ![180]⟩ : Shape).Idx → EReal)
    (b : Fin 4096) (n : Fin 64) (o : Fin 180) : EReal :=
  outW (fun n c => x0 (ix3 b n c)) (fun q k => x2 (ix3 (wmod b) q k))
    (fun j c => x3 (ix2 j c)) (fun j => x4 (ix1 j)) (fun h q k => bias (ix3 h q k))
    (fun o c => x6 (ix2 o c)) (fun o => x7 (ix1 o)) scaleQ negInf n o

/-- The result array. -/
def G (x0 : (⟨3, ![4096, 64, 180]⟩ : Shape).Idx → EReal) (x2 : (⟨3, ![64, 64, 64]⟩ : Shape).Idx → EReal)
    (x3 : (⟨2, ![540, 180]⟩ : Shape).Idx → EReal) (x4 : (⟨1, ![540]⟩ : Shape).Idx → EReal)
    (bias : (⟨3, ![6, 64, 64]⟩ : Shape).Idx → EReal)
    (x6 : (⟨2, ![180, 180]⟩ : Shape).Idx → EReal) (x7 : (⟨1, ![180]⟩ : Shape).Idx → EReal) :
    (⟨3, ![4096, 64, 180]⟩ : Shape).Idx → EReal :=
  fun i => gAt x0 x2 x3 x4 bias x6 x7 ⟨(i 0).val, (i 0).isLt⟩ ⟨(i 1).val, (i 1).isLt⟩ ⟨(i 2).val, (i 2).isLt⟩

theorem G_ix3 (x0 : (⟨3, ![4096, 64, 180]⟩ : Shape).Idx → EReal) (x2 : (⟨3, ![64, 64, 64]⟩ : Shape).Idx → EReal)
    (x3 : (⟨2, ![540, 180]⟩ : Shape).Idx → EReal) (x4 : (⟨1, ![540]⟩ : Shape).Idx → EReal)
    (bias : (⟨3, ![6, 64, 64]⟩ : Shape).Idx → EReal)
    (x6 : (⟨2, ![180, 180]⟩ : Shape).Idx → EReal) (x7 : (⟨1, ![180]⟩ : Shape).Idx → EReal)
    (b : Fin 4096) (n : Fin 64) (o : Fin 180) :
    G x0 x2 x3 x4 bias x6 x7 (ix3 b n o) = gAt x0 x2 x3 x4 bias x6 x7 b n o := rfl

end Attn

end
-- ==== Proof.KProj.lean ====
/-
  The block's fused projection (2048 rows = 32 windows of 64 tokens, 540 columns) read at row `64 w + n`,
  column `j`: window w's `Attn.proj`, the weights read transposed (the block holds them row by column).
-/
import proofs.«411040_j36610301231822_3_alg».proof.Proof.Gen.KernelIdeal.Skeleton
import proofs.«411040_j36610301231822_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.TcCoe Idealize.ShloMosaic.ValueIdx

/-- The product's left operand is read at the result's row … -/
theorem kproj_lhs_0 (i : S2048x540.Idx) (q : dot_S2048x180_S180x540_S2048x540_1_0_0_1_n_n.contr.Idx) :
    (dot_S2048x180_S180x540_S2048x540_1_0_0_1_n_n.lhsIdx i q 0).val = (i 0).val := by
  unfold DotDims.lhsIdx
  rw [dif_neg (show ¬(0 : Fin S2048x180.rank) ∈ dot_S2048x180_S180x540_S2048x540_1_0_0_1_n_n.lhsBatch by decide), dif_pos (show (0 : Fin S2048x180.rank) ∈ dot_S2048x180_S180x540_S2048x540_1_0_0_1_n_n.lhsNonContracting by decide)]
  rfl
/-- … and at the contraction position on its second axis. -/
theorem kproj_lhs_1 (i : S2048x540.Idx) (q : dot_S2048x180_S180x540_S2048x540_1_0_0_1_n_n.contr.Idx) :
    (dot_S2048x180_S180x540_S2048x540_1_0_0_1_n_n.lhsIdx i q 1).val = (q ⟨0, by decide⟩).val :=
  dot_S2048x180_S180x540_S2048x540_1_0_0_1_n_n.lhsIdx_val_of_single rfl i q
/-- The right operand is read at the contraction position on its first axis … -/
theorem kproj_rhs_0 (i : S2048x540.Idx) (q : dot_S2048x180_S180x540_S2048x540_1_0_0_1_n_n.contr.Idx) :
    (dot_S2048x180_S180x540_S2048x540_1_0_0_1_n_n.rhsIdx i q 0).val = (q ⟨0, by decide⟩).val :=
  dot_S2048x180_S180x540_S2048x540_1_0_0_1_n_n.rhsIdx_val_of_single rfl i q
/-- … and at the result's column. -/
theorem kproj_rhs_1 (i : S2048x540.Idx) (q : dot_S2048x180_S180x540_S2048x540_1_0_0_1_n_n.contr.Idx) :
    (dot_S2048x180_S180x540_S2048x540_1_0_0_1_n_n.rhsIdx i q 1).val = (i 1).val := by
  unfold DotDims.rhsIdx
  rw [dif_neg (show ¬(1 : Fin S180x540.rank) ∈ dot_S2048x180_S180x540_S2048x540_1_0_0_1_n_n.rhsBatch by decide), dif_pos (show (1 : Fin S180x540.rank) ∈ dot_S2048x180_S180x540_S2048x540_1_0_0_1_n_n.rhsNonContracting by decide)]
  rfl

theorem k_proj (X : Vec Ideal S32x64x180 .bf16) (W1 : Vec Ideal S180x540 .bf16) (b1 : Vec Ideal S1x540 .f32)
    (w : Fin 32) (n : Fin 64) (j : Fin 540) :
    k0_pay2 (F := Ideal) X W1 b1 (ix2 (Attn.row w n) j)
      = Attn.proj (fun n c => X (ix3 w n c)) (fun j c => W1 (ix2 c j)) (fun j => b1 (ix2 (0 : Fin 1) j)) n j := by
  unfold k0_pay2 Attn.proj
  rw [addf_apply]
  show _ = (∑ c : Fin 180, X (ix3 w n c) * W1 (ix2 c j)) + b1 (ix2 (0 : Fin 1) j)
  congr 1
  · -- the product: a sum over the contraction position, re-indexed by its one coordinate
    simp only [matmul]
    rw [Ideal.matmul_constant_zero_apply, ← Equiv.sum_comp (contrEquiv1 dot_S2048x180_S180x540_S2048x540_1_0_0_1_n_n 180 rfl rfl).symm]
    refine Finset.sum_congr rfl fun c _ => ?_
    have hk := contrEquiv1_symm_val dot_S2048x180_S180x540_S2048x540_1_0_0_1_n_n 180 rfl rfl c
    congr 1
    · -- row 64 w + n, column c of the flattened block is element (w, n, c): both sit at position (64 w + n) 180 + c
      rw [shapeCast_self]
      refine shapeCast_apply X shapeCasts_S32x64x180_S2048x180 _ (ix3 w n c) ?_
      rw [Shape.rowMajor_val_three, Shape.rowMajor_val_two, kproj_lhs_0, kproj_lhs_1, hk]
      show (w.val * 64 + n.val) * 180 + c.val = (64 * w.val + n.val) * 180 + c.val
      omega
    · -- the weights are read at (c, j)
      rw [shapeCast_self]
      refine congrArg W1 (funext fun a => Fin.ext ?_)
      match a with
      | ⟨0, _⟩ => exact (kproj_rhs_0 _ _).trans hk
      | ⟨1, _⟩ => exact kproj_rhs_1 _ _
  · -- the bias row, broadcast down the rows, is read at column j
    rw [shapeCast_shapeCast]
    refine broadcastTo_apply b1 broadcasts_S1x540_S2048x540 _ (ix2 (0 : Fin 1) j) fun a => ?_
    match a with
    | ⟨0, _⟩ => exact (if_pos rfl).symm
    | ⟨1, _⟩ =>
      show j.val = if (540 : Nat) = 1 then 0 else j.val
      rw [if_neg (by decide)]

end Cert.KernelIdeal.KValue

end
-- ==== Proof.KHead.lean ====
/-
  One head of the kernel's body as a function of the block's fused projection `v10`, the head's bias
  row `bv` and the mask block `mv`: the three 30-lane column bands at offsets `oq`, `ok`, `ov` are the
  query (scaled), key and value lanes; logits, row softmax and the weighted mix of values follow.  The six
  heads of the body are this one term at six triples of offsets.  Read at window w, token n, lane d it is
  `Attn.mix` of `Attn.soft` of `Attn.logit` over the rows of window w.
-/
import proofs.«411040_j36610301231822_3_alg».proof.Proof.Gen.KernelIdeal.Skeleton
import proofs.«411040_j36610301231822_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.TcCoe Idealize.ShloMosaic.ValueIdx

variable {F : FTy → Type} [FloatOps F]

/-- The head's logits: scaled query lanes times key lanes, plus the bias row broadcast over the 32 windows, plus the mask. -/
def logitT (oq ok : ℕ) (hq : S2048x540.Slices ![0, oq] S2048x30) (hk : S2048x540.Slices ![0, ok] S2048x30)
    (v10 : FVec F S2048x540 .f32) (bv : Vec F S1x64x64 .f32) (mv : Vec F S32x64x64 .f32) : FVec F S32x64x64 .f32 :=
  have v11 : FVec F S2048x30 .f32 := extractStridedSlice S2048x30 ![0, oq] v10 hq
  have cst_6 : F .f32 := Scalar.ofBits .f32 0x3E3AF4BA#32
  have v12 : FVec F S2048x30 .f32 := broadcast S2048x30 cst_6
  have v13 : FVec F S2048x30 .f32 := mulf v11 v12
  have v14 : FVec F S2048x30 .f32 := extractStridedSlice S2048x30 ![0, ok] v10 hk
  have v16 : FVec F S32x64x30 .f32 := shapeCast S32x64x30 v13 shapeCasts_S2048x30_S32x64x30
  have v17 : FVec F S32x64x30 .bf16 := truncf .bf16 v16 bitsLt_bf16_f32
  have v18 : FVec F S32x64x30 .f32 := shapeCast S32x64x30 v14 shapeCasts_S2048x30_S32x64x30
  have v19 : FVec F S32x64x30 .bf16 := truncf .bf16 v18 bitsLt_bf16_f32
  have cst_7 : FVec F S32x64x64 .f32 := constant S32x64x64 .f32 0x00000000#32
  have v22 : FVec F S32x64x64 .f32 := matmul dot_S32x64x30_S32x64x30_S32x64x64_2_2_1_1_0_0 none v17 v19 cst_7
  have v24 : FVec F S64x64 .f32 := shapeCast S64x64 bv shapeCasts_S1x64x64_S64x64
  have v25 : FVec F S1x64x64 .f32 := shapeCast S1x64x64 v24 shapeCasts_S64x64_S1x64x64
  have v26 : FVec F S32x64x64 .f32 := broadcastTo S32x64x64 v25 broadcasts_S1x64x64_S32x64x64
  have v27 : FVec F S32x64x64 .f32 := addf v22 v26
  have v29 : FVec F S32x64x64 .f32 := addf v27 mv
  v29

/-- Row softmax of a block of logits: subtract the row maximum, exponentiate, divide by the row sum. -/
def softT (v29 : FVec F S32x64x64 .f32) : FVec F S32x64x64 .f32 :=
  have v30 : FVec F S32x64 .f32 := multiReduction .maximumf [2] S32x64 v29 0xFF800000#32 reduces_S32x64x64_S32x64 (.inl rfl) rfl
  have v31 : FVec F S32x64x1 .f32 := shapeCast S32x64x1 v30 shapeCasts_S32x64_S32x64x1
  have v32 : FVec F S32x64x64 .f32 := broadcastTo S32x64x64 v31 broadcasts_S32x64x1_S32x64x64
  have v33 : FVec F S32x64x64 .f32 := subf v29 v32
  have v34 : FVec F S32x64x64 .f32 := exp v33
  have v35 : FVec F S32x64 .f32 := multiReduction .add [2] S32x64 v34 0x00000000#32 reduces_S32x64x64_S32x64 (.inl rfl) rfl
  have v36 : FVec F S32x64x1 .f32 := shapeCast S32x64x1 v35 shapeCasts_S32x64_S32x64x1
  have v37 : FVec F S32x64x64 .f32 := broadcastTo S32x64x64 v36 broadcasts_S32x64x1_S32x64x64
  have v38 : FVec F S32x64x64 .f32 := divf v34 v37
  v38

/-- The head's 30 output lanes for every token of the 32 windows. -/
def headT (oq ok ov : ℕ) (hq : S2048x540.Slices ![0, oq] S2048x30) (hk : S2048x540.Slices ![0, ok] S2048x30)
    (hv : S2048x540.Slices ![0, ov] S2048x30)
    (v10 : FVec F S2048x540 .f32) (bv : Vec F S1x64x64 .f32) (mv : Vec F S32x64x64 .f32) : FVec F S32x64x30 .f32 :=
  have v15 : FVec F S2048x30 .f32 := extractStridedSlice S2048x30 ![0, ov] v10 hv
  have v20 : FVec F S32x64x30 .f32 := shapeCast S32x64x30 v15 shapeCasts_S2048x30_S32x64x30
  have v21 : FVec F S32x64x30 .bf16 := truncf .bf16 v20 bitsLt_bf16_f32
  have v39 : FVec F S32x64x64 .bf16 := truncf .bf16 (softT (logitT oq ok hq hk v10 bv mv)) bitsLt_bf16_f32
  have cst_16 : FVec F S32x64x30 .f32 := constant S32x64x30 .f32 0x00000000#32
  have v40 : FVec F S32x64x30 .f32 := matmul dot_S32x64x64_S32x64x30_S32x64x30_2_1_1_2_0_0 none v39 v21 cst_16
  v40

/-! ## Layout: the 2048 rows as 32 windows of 64 tokens, and a 30-lane column band -/

/-- The 2048 × 30 rows regrouped as 32 × 64 × 30: window `w`, token `n` is row `64 w + n`. -/
theorem rows_apply {α : Type} (X : S2048x30.Idx → α) (w : Fin 32) (n : Fin 64) (d : Fin 30) :
    shapeCast S32x64x30 X shapeCasts_S2048x30_S32x64x30 (ix3 w n d) = X (ix2 (Attn.row w n) d) :=
  shapeCast_apply X shapeCasts_S2048x30_S32x64x30 (ix3 w n d) (ix2 (Attn.row w n) d) (by
    rw [Shape.rowMajor_val_two, Shape.rowMajor_val_three]
    show (64 * w.val + n.val) * 30 + d.val = (w.val * 64 + n.val) * 30 + d.val
    omega)

/-- The 30 columns from `off`: lane `d` of the band is column `off + d`. -/
theorem slice_apply {α : Type} (off : ℕ) (hs : S2048x540.Slices ![0, off] S2048x30) (v10 : S2048x540.Idx → α)
    (r : Fin 2048) (d : Fin 30) (c : Fin 540) (hc : c.val = off + d.val) :
    extractStridedSlice S2048x30 ![0, off] v10 hs (ix2 r d) = v10 (ix2 r c) :=
  extractStridedSlice_apply ![0, off] v10 hs (ix2 r d) (ix2 r c) (fun a => match a with
    | ⟨0, _⟩ => by show r.val = 0 + r.val; omega
    | ⟨1, _⟩ => by show c.val = off + d.val; exact hc)

/-- A band regrouped by windows, read at window `w`, token `n`, lane `d`. -/
theorem band_apply {α : Type} (off : ℕ) (hs : S2048x540.Slices ![0, off] S2048x30) (v10 : S2048x540.Idx → α)
    (w : Fin 32) (n : Fin 64) (d : Fin 30) (c : Fin 540) (hc : c.val = off + d.val) :
    shapeCast S32x64x30 (extractStridedSlice S2048x30 ![0, off] v10 hs) shapeCasts_S2048x30_S32x64x30 (ix3 w n d)
      = v10 (ix2 (Attn.row w n) c) :=
  (rows_apply _ w n d).trans (slice_apply off hs v10 _ d c hc)

/-- The bias row, its unit axis dropped and put back, broadcast over the 32 windows: every window reads the one row. -/
theorem biasRow_apply {α : Type} (bv : S1x64x64.Idx → α) (w : Fin 32) (q k : Fin 64) :
    broadcastTo S32x64x64 (shapeCast S1x64x64 (shapeCast S64x64 bv shapeCasts_S1x64x64_S64x64) shapeCasts_S64x64_S1x64x64)
        broadcasts_S1x64x64_S32x64x64 (ix3 w q k)
      = bv (ix3 (0 : Fin 1) q k) := by
  refine (broadcastTo_apply _ broadcasts_S1x64x64_S32x64x64 (ix3 w q k) (ix3 (0 : Fin 1) q k) (fun a => match a with
    | ⟨0, _⟩ => by show 0 = if (1 : ℕ) = 1 then 0 else w.val; rw [if_pos rfl]
    | ⟨1, _⟩ => by show q.val = if (64 : ℕ) = 1 then 0 else q.val; rw [if_neg (by decide)]
    | ⟨2, _⟩ => by show k.val = if (64 : ℕ) = 1 then 0 else k.val; rw [if_neg (by decide)])).trans ?_
  refine (shapeCast_ab_1ab_apply _ shapeCasts_S64x64_S1x64x64 0 q k).trans ?_
  exact shapeCast_1ab_ab_apply bv shapeCasts_S1x64x64_S64x64 q k

/-- A per-row quantity given a trailing unit axis and broadcast along the row: every key position reads the row's value. -/
theorem keep_apply {α : Type} (r : S32x64.Idx → α) (w : Fin 32) (q k : Fin 64) :
    broadcastTo S32x64x64 (shapeCast S32x64x1 r shapeCasts_S32x64_S32x64x1) broadcasts_S32x64x1_S32x64x64 (ix3 w q k)
      = r (ix2 w q) := by
  refine (broadcastTo_apply _ broadcasts_S32x64x1_S32x64x64 (ix3 w q k) (ix3 w q (0 : Fin 1)) (fun a => match a with
    | ⟨0, _⟩ => by show w.val = if (32 : ℕ) = 1 then 0 else w.val; rw [if_neg (by decide)]
    | ⟨1, _⟩ => by show q.val = if (64 : ℕ) = 1 then 0 else q.val; rw [if_neg (by decide)]
    | ⟨2, _⟩ => by show 0 = if (1 : ℕ) = 1 then 0 else k.val; rw [if_pos rfl])).trans ?_
  exact shapeCast_apply r shapeCasts_S32x64_S32x64x1 (ix3 w q (0 : Fin 1)) (ix2 w q) (by
    rw [Shape.rowMajor_val_two, Shape.rowMajor_val_three]
    show w.val * 64 + q.val = (w.val * 64 + q.val) * 1 + 0
    omega)

/-! ## The query-key product: batch axis 0, contraction over the 30 lanes -/

theorem lhsQK_0 (i : S32x64x64.Idx) (q : dot_S32x64x30_S32x64x30_S32x64x64_2_2_1_1_0_0.contr.Idx) :
    (dot_S32x64x30_S32x64x30_S32x64x64_2_2_1_1_0_0.lhsIdx i q 0).val = (i 0).val := by
  unfold DotDims.lhsIdx
  rw [dif_pos (show (0 : Fin S32x64x30.rank) ∈ dot_S32x64x30_S32x64x30_S32x64x64_2_2_1_1_0_0.lhsBatch by decide)]
  rfl
theorem lhsQK_1 (i : S32x64x64.Idx) (q : dot_S32x64x30_S32x64x30_S32x64x64_2_2_1_1_0_0.contr.Idx) :
    (dot_S32x64x30_S32x64x30_S32x64x64_2_2_1_1_0_0.lhsIdx i q 1).val = (i 1).val := by
  unfold DotDims.lhsIdx
  rw [dif_neg (show ¬(1 : Fin S32x64x30.rank) ∈ dot_S32x64x30_S32x64x30_S32x64x64_2_2_1_1_0_0.lhsBatch by decide), dif_pos (show (1 : Fin S32x64x30.rank) ∈ dot_S32x64x30_S32x64x30_S32x64x64_2_2_1_1_0_0.lhsNonContracting by decide)]
  rfl
theorem lhsQK_2 (i : S32x64x64.Idx) (q : dot_S32x64x30_S32x64x30_S32x64x64_2_2_1_1_0_0.contr.Idx) :
    (dot_S32x64x30_S32x64x30_S32x64x64_2_2_1_1_0_0.lhsIdx i q 2).val = (q ⟨0, by decide⟩).val :=
  dot_S32x64x30_S32x64x30_S32x64x64_2_2_1_1_0_0.lhsIdx_val_of_single rfl i q
theorem rhsQK_0 (i : S32x64x64.Idx) (q : dot_S32x64x30_S32x64x30_S32x64x64_2_2_1_1_0_0.contr.Idx) :
    (dot_S32x64x30_S32x64x30_S32x64x64_2_2_1_1_0_0.rhsIdx i q 0).val = (i 0).val := by
  unfold DotDims.rhsIdx
  rw [dif_pos (show (0 : Fin S32x64x30.rank) ∈ dot_S32x64x30_S32x64x30_S32x64x64_2_2_1_1_0_0.rhsBatch by decide)]
  rfl
theorem rhsQK_1 (i : S32x64x64.Idx) (q : dot_S32x64x30_S32x64x30_S32x64x64_2_2_1_1_0_0.contr.Idx) :
    (dot_S32x64x30_S32x64x30_S32x64x64_2_2_1_1_0_0.rhsIdx i q 1).val = (i 2).val := by
  unfold DotDims.rhsIdx
  rw [dif_neg (show ¬(1 : Fin S32x64x30.rank) ∈ dot_S32x64x30_S32x64x30_S32x64x64_2_2_1_1_0_0.rhsBatch by decide), dif_pos (show (1 : Fin S32x64x30.rank) ∈ dot_S32x64x30_S32x64x30_S32x64x64_2_2_1_1_0_0.rhsNonContracting by decide)]
  rfl
theorem rhsQK_2 (i : S32x64x64.Idx) (q : dot_S32x64x30_S32x64x30_S32x64x64_2_2_1_1_0_0.contr.Idx) :
    (dot_S32x64x30_S32x64x30_S32x64x64_2_2_1_1_0_0.rhsIdx i q 2).val = (q ⟨0, by decide⟩).val :=
  dot_S32x64x30_S32x64x30_S32x64x64_2_2_1_1_0_0.rhsIdx_val_of_single rfl i q

/-- Window `w`, query `q`, key `k` of the product: the sum over the 30 lanes of the query row's lane times the key row's lane. -/
theorem dotQK_apply (A B : FVec Ideal S32x64x30 .bf16) (w : Fin 32) (q k : Fin 64) :
    matmul dot_S32x64x30_S32x64x30_S32x64x64_2_2_1_1_0_0 none A B (constant (F := Ideal) S32x64x64 .f32 0x00000000#32) (ix3 w q k)
      = ∑ d : Fin 30, A (ix3 w q d) * B (ix3 w k d) := by
  simp only [matmul]
  rw [Ideal.matmul_constant_zero_apply, ← Equiv.sum_comp (contrEquiv1 dot_S32x64x30_S32x64x30_S32x64x64_2_2_1_1_0_0 30 rfl rfl).symm]
  refine Finset.sum_congr rfl fun d _ => ?_
  have hd := contrEquiv1_symm_val dot_S32x64x30_S32x64x30_S32x64x64_2_2_1_1_0_0 30 rfl rfl d
  have el : dot_S32x64x30_S32x64x30_S32x64x64_2_2_1_1_0_0.lhsIdx (ix3 w q k) ((contrEquiv1 dot_S32x64x30_S32x64x30_S32x64x64_2_2_1_1_0_0 30 rfl rfl).symm d) = ix3 w q d := funext fun a => Fin.ext (by
    match a with
    | ⟨0, _⟩ => exact lhsQK_0 _ _
    | ⟨1, _⟩ => exact lhsQK_1 _ _
    | ⟨2, _⟩ => exact (lhsQK_2 _ _).trans hd)
  have er : dot_S32x64x30_S32x64x30_S32x64x64_2_2_1_1_0_0.rhsIdx (ix3 w q k) ((contrEquiv1 dot_S32x64x30_S32x64x30_S32x64x64_2_2_1_1_0_0 30 rfl rfl).symm d) = ix3 w k d := funext fun a => Fin.ext (by
    match a with
    | ⟨0, _⟩ => exact rhsQK_0 _ _
    | ⟨1, _⟩ => exact rhsQK_1 _ _
    | ⟨2, _⟩ => exact (rhsQK_2 _ _).trans hd)
  rw [el, er]

/-! ## The weights-values product: batch axis 0, contraction over the 64 keys -/

theorem lhsPV_0 (i : S32x64x30.Idx) (q : dot_S32x64x64_S32x64x30_S32x64x30_2_1_1_2_0_0.contr.Idx) :
    (dot_S32x64x64_S32x64x30_S32x64x30_2_1_1_2_0_0.lhsIdx i q 0).val = (i 0).val := by
  unfold DotDims.lhsIdx
  rw [dif_pos (show (0 : Fin S32x64x64.rank) ∈ dot_S32x64x64_S32x64x30_S32x64x30_2_1_1_2_0_0.lhsBatch by decide)]
  rfl
theorem lhsPV_1 (i : S32x64x30.Idx) (q : dot_S32x64x64_S32x64x30_S32x64x30_2_1_1_2_0_0.contr.Idx) :
    (dot_S32x64x64_S32x64x30_S32x64x30_2_1_1_2_0_0.lhsIdx i q 1).val = (i 1).val := by
  unfold DotDims.lhsIdx
  rw [dif_neg (show ¬(1 : Fin S32x64x64.rank) ∈ dot_S32x64x64_S32x64x30_S32x64x30_2_1_1_2_0_0.lhsBatch by decide), dif_pos (show (1 : Fin S32x64x64.rank) ∈ dot_S32x64x64_S32x64x30_S32x64x30_2_1_1_2_0_0.lhsNonContracting by decide)]
  rfl
theorem lhsPV_2 (i : S32x64x30.Idx) (q : dot_S32x64x64_S32x64x30_S32x64x30_2_1_1_2_0_0.contr.Idx) :
    (dot_S32x64x64_S32x64x30_S32x64x30_2_1_1_2_0_0.lhsIdx i q 2).val = (q ⟨0, by decide⟩).val :=
  dot_S32x64x64_S32x64x30_S32x64x30_2_1_1_2_0_0.lhsIdx_val_of_single rfl i q
theorem rhsPV_0 (i : S32x64x30.Idx) (q : dot_S32x64x64_S32x64x30_S32x64x30_2_1_1_2_0_0.contr.Idx) :
    (dot_S32x64x64_S32x64x30_S32x64x30_2_1_1_2_0_0.rhsIdx i q 0).val = (i 0).val := by
  unfold DotDims.rhsIdx
  rw [dif_pos (show (0 : Fin S32x64x30.rank) ∈ dot_S32x64x64_S32x64x30_S32x64x30_2_1_1_2_0_0.rhsBatch by decide)]
  rfl
theorem rhsPV_1 (i : S32x64x30.Idx) (q : dot_S32x64x64_S32x64x30_S32x64x30_2_1_1_2_0_0.contr.Idx) :
    (dot_S32x64x64_S32x64x30_S32x64x30_2_1_1_2_0_0.rhsIdx i q 1).val = (q ⟨0, by decide⟩).val :=
  dot_S32x64x64_S32x64x30_S32x64x30_2_1_1_2_0_0.rhsIdx_val_of_single rfl i q
theorem rhsPV_2 (i : S32x64x30.Idx) (q : dot_S32x64x64_S32x64x30_S32x64x30_2_1_1_2_0_0.contr.Idx) :
    (dot_S32x64x64_S32x64x30_S32x64x30_2_1_1_2_0_0.rhsIdx i q 2).val = (i 2).val := by
  unfold DotDims.rhsIdx
  rw [dif_neg (show ¬(2 : Fin S32x64x30.rank) ∈ dot_S32x64x64_S32x64x30_S32x64x30_2_1_1_2_0_0.rhsBatch by decide), dif_pos (show (2 : Fin S32x64x30.rank) ∈ dot_S32x64x64_S32x64x30_S32x64x30_2_1_1_2_0_0.rhsNonContracting by decide)]
  rfl

/-- Window `w`, token `n`, lane `d` of the product: the sum over the 64 keys of the token's weight times the key row's lane. -/
theorem dotPV_apply (P : FVec Ideal S32x64x64 .bf16) (V : FVec Ideal S32x64x30 .bf16) (w : Fin 32) (n : Fin 64) (d : Fin 30) :
    matmul dot_S32x64x64_S32x64x30_S32x64x30_2_1_1_2_0_0 none P V (constant (F := Ideal) S32x64x30 .f32 0x00000000#32) (ix3 w n d)
      = ∑ k : Fin 64, P (ix3 w n k) * V (ix3 w k d) := by
  simp only [matmul]
  rw [Ideal.matmul_constant_zero_apply, ← Equiv.sum_comp (contrEquiv1 dot_S32x64x64_S32x64x30_S32x64x30_2_1_1_2_0_0 64 rfl rfl).symm]
  refine Finset.sum_congr rfl fun k _ => ?_
  have hk := contrEquiv1_symm_val dot_S32x64x64_S32x64x30_S32x64x30_2_1_1_2_0_0 64 rfl rfl k
  have el : dot_S32x64x64_S32x64x30_S32x64x30_2_1_1_2_0_0.lhsIdx (ix3 w n d) ((contrEquiv1 dot_S32x64x64_S32x64x30_S32x64x30_2_1_1_2_0_0 64 rfl rfl).symm k) = ix3 w n k := funext fun a => Fin.ext (by
    match a with
    | ⟨0, _⟩ => exact lhsPV_0 _ _
    | ⟨1, _⟩ => exact lhsPV_1 _ _
    | ⟨2, _⟩ => exact (lhsPV_2 _ _).trans hk)
  have er : dot_S32x64x64_S32x64x30_S32x64x30_2_1_1_2_0_0.rhsIdx (ix3 w n d) ((contrEquiv1 dot_S32x64x64_S32x64x30_S32x64x30_2_1_1_2_0_0 64 rfl rfl).symm k) = ix3 w k d := funext fun a => Fin.ext (by
    match a with
    | ⟨0, _⟩ => exact rhsPV_0 _ _
    | ⟨1, _⟩ => exact (rhsPV_1 _ _).trans hk
    | ⟨2, _⟩ => exact rhsPV_2 _ _)
  rw [el, er]

/-! ## The three stages read at an index -/

/-- The logits at window `w`, query `q`, key `k`: the scaled query lanes of row `q` times the key lanes of row `k`, plus the
    bias row, plus the mask. -/
theorem logitT_apply (oq ok : ℕ) (hq : S2048x540.Slices ![0, oq] S2048x30) (hk : S2048x540.Slices ![0, ok] S2048x30)
    (cq ck : Fin 30 → Fin 540) (hcq : ∀ d, (cq d).val = oq + d.val) (hck : ∀ d, (ck d).val = ok + d.val)
    (v10 : FVec Ideal S2048x540 .f32) (bv : FVec Ideal S1x64x64 .f32) (mv : FVec Ideal S32x64x64 .f32)
    (w : Fin 32) (q k : Fin 64) :
    logitT (F := Ideal) oq ok hq hk v10 bv mv (ix3 w q k)
      = Attn.logit (fun n j => v10 (ix2 (Attn.row w n) j)) (fun q k => bv (ix3 (0 : Fin 1) q k))
          (fun q k => mv (ix3 w q k)) Attn.scaleQ cq ck q k := by
  unfold logitT Attn.logit
  show (matmul dot_S32x64x30_S32x64x30_S32x64x64_2_2_1_1_0_0 none _ _ (constant (F := Ideal) S32x64x64 .f32 0x00000000#32) (ix3 w q k)
      + broadcastTo S32x64x64 _ broadcasts_S1x64x64_S32x64x64 (ix3 w q k)) + mv (ix3 w q k) = _
  rw [dotQK_apply, biasRow_apply]
  refine congrArg₂ (· + ·) (congrArg₂ (· + ·) (Finset.sum_congr rfl fun d _ => ?_) rfl) rfl
  refine congrArg₂ (· * ·) ?_ ?_
  · show shapeCast S32x64x30 (mulf (extractStridedSlice S2048x30 ![0, oq] v10 hq) _) shapeCasts_S2048x30_S32x64x30 (ix3 w q d) = _
    rw [rows_apply]
    show extractStridedSlice S2048x30 ![0, oq] v10 hq (ix2 (Attn.row w q) d) * Attn.scaleQ = _
    rw [slice_apply oq hq v10 (Attn.row w q) d (cq d) (hcq d)]
  · show shapeCast S32x64x30 (extractStridedSlice S2048x30 ![0, ok] v10 hk) shapeCasts_S2048x30_S32x64x30 (ix3 w k d) = _
    exact band_apply ok hk v10 w k d (ck d) (hck d)

/-- The inserted coordinate of the row reduction: key `k` put back after window `w`, query `q`. -/
theorem lift_row (w : Fin 32) (q : Fin 64) (k : Fin 64) :
    reduces_S32x64x64_S32x64.lift (ix2 w q) k = ix3 w q k :=
  funext fun a => Fin.ext (by
    match a with
    | ⟨0, _⟩ => rfl
    | ⟨1, _⟩ => rfl
    | ⟨2, _⟩ => rfl)

/-- The row maximum, folded from minus infinity. -/
theorem rowMaxT_apply (s : FVec Ideal S32x64x64 .f32) (w : Fin 32) (q : Fin 64) :
    multiReduction (F := Ideal) .maximumf [2] S32x64 s 0xFF800000#32 reduces_S32x64x64_S32x64 (.inl rfl) rfl (ix2 w q)
      = Attn.rowMax Attn.negInf (fun k => s (ix3 w q k)) := by
  refine (Ideal.multiReduction_maximumf_single s _ reduces_S32x64x64_S32x64 _ _ (ix2 w q)).trans ?_
  show (Finset.univ : Finset (Fin 64)).fold max Attn.negInf (s ∘ reduces_S32x64x64_S32x64.lift (ix2 w q)) = _
  unfold Attn.rowMax
  exact congrArg (fun f => (Finset.univ : Finset (Fin 64)).fold max Attn.negInf f) (funext fun k => congrArg s (lift_row w q k))

/-- The row sum. -/
theorem rowSumT_apply (e : FVec Ideal S32x64x64 .f32) (w : Fin 32) (q : Fin 64) :
    multiReduction (F := Ideal) .add [2] S32x64 e 0x00000000#32 reduces_S32x64x64_S32x64 (.inl rfl) rfl (ix2 w q)
      = ∑ k : Fin 64, e (ix3 w q k) := by
  refine (Ideal.multiReduction_add_single e _ reduces_S32x64x64_S32x64 _ _ (ix2 w q)).trans ?_
  exact Finset.sum_congr rfl fun k _ => congrArg e (lift_row w q k)

/-- The softmax weights at window `w`, query `q`, key `k`. -/
theorem softT_apply (s : FVec Ideal S32x64x64 .f32) (w : Fin 32) (q k : Fin 64) :
    softT (F := Ideal) s (ix3 w q k) = Attn.soft Attn.negInf (fun q k => s (ix3 w q k)) q k := by
  have hmax : ∀ k' : Fin 64,
      broadcastTo S32x64x64 (shapeCast S32x64x1
          (multiReduction (F := Ideal) .maximumf [2] S32x64 s 0xFF800000#32 reduces_S32x64x64_S32x64 (.inl rfl) rfl)
          shapeCasts_S32x64_S32x64x1) broadcasts_S32x64x1_S32x64x64 (ix3 w q k')
        = Attn.rowMax Attn.negInf (fun k => s (ix3 w q k)) := fun k' =>
    (keep_apply _ w q k').trans (rowMaxT_apply s w q)
  unfold softT Attn.soft
  show Ideal.div (Ideal.exp (s (ix3 w q k) - broadcastTo S32x64x64 _ broadcasts_S32x64x1_S32x64x64 (ix3 w q k)))
      (broadcastTo S32x64x64 _ broadcasts_S32x64x1_S32x64x64 (ix3 w q k)) = _
  rw [hmax k, keep_apply, rowSumT_apply]
  refine congrArg _ (Finset.sum_congr rfl fun k' _ => ?_)
  show Ideal.exp (s (ix3 w q k') - broadcastTo S32x64x64 _ broadcasts_S32x64x1_S32x64x64 (ix3 w q k')) = _
  rw [hmax k']

/-- The head read at window `w`, token `n`, lane `d`, for column maps `cq`, `ck`, `cv` that name the three bands. -/
theorem headT_apply (oq ok ov : ℕ) (hq : S2048x540.Slices ![0, oq] S2048x30) (hk : S2048x540.Slices ![0, ok] S2048x30)
    (hv : S2048x540.Slices ![0, ov] S2048x30) (cq ck cv : Fin 30 → Fin 540)
    (hcq : ∀ d, (cq d).val = oq + d.val) (hck : ∀ d, (ck d).val = ok + d.val) (hcv : ∀ d, (cv d).val = ov + d.val)
    (v10 : FVec Ideal S2048x540 .f32) (bv : FVec Ideal S1x64x64 .f32) (mv : FVec Ideal S32x64x64 .f32)
    (w : Fin 32) (n : Fin 64) (d : Fin 30) :
    headT (F := Ideal) oq ok ov hq hk hv v10 bv mv (ix3 w n d)
      = Attn.mix (Attn.soft Attn.negInf
            (Attn.logit (fun n j => v10 (ix2 (Attn.row w n) j)) (fun q k => bv (ix3 (0 : Fin 1) q k))
              (fun q k => mv (ix3 w q k)) Attn.scaleQ cq ck))
          (fun n j => v10 (ix2 (Attn.row w n) j)) cv n d := by
  -- the logits of window `w` as a function of query and key
  have hlog : (fun q k => logitT (F := Ideal) oq ok hq hk v10 bv mv (ix3 w q k))
      = Attn.logit (fun n j => v10 (ix2 (Attn.row w n) j)) (fun q k => bv (ix3 (0 : Fin 1) q k))
          (fun q k => mv (ix3 w q k)) Attn.scaleQ cq ck :=
    funext fun q => funext fun k => logitT_apply oq ok hq hk cq ck hcq hck v10 bv mv w q k
  unfold headT Attn.mix
  show matmul dot_S32x64x64_S32x64x30_S32x64x30_2_1_1_2_0_0 none _ _ (constant (F := Ideal) S32x64x30 .f32 0x00000000#32) (ix3 w n d) = _
  rw [dotPV_apply]
  refine Finset.sum_congr rfl fun k _ => congrArg₂ (· * ·) ?_ ?_
  · show softT (F := Ideal) (logitT (F := Ideal) oq ok hq hk v10 bv mv) (ix3 w n k) = _
    rw [softT_apply, hlog]
  · show shapeCast S32x64x30 (extractStridedSlice S2048x30 ![0, ov] v10 hv) shapeCasts_S2048x30_S32x64x30 (ix3 w k d) = _
    exact band_apply ov hv v10 w k d (cv d) (hcv d)

end Cert.KernelIdeal.KValue

end
-- ==== Proof.KFin.lean ====
/-
  The end of the kernel's body: the six heads' 30 lanes side by side are the 180 channels of each token;
  the 2048 rows are multiplied by the output weights (held row by column) and the output bias is added.
  Read at window w, token n, output channel o it is the sum over the channels c of head `c / 30`'s lane
  `c mod 30` times the weight, plus the bias.
-/
import proofs.«411040_j36610301231822_3_alg».proof.Proof.Gen.KernelIdeal.Skeleton
import proofs.«411040_j36610301231822_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.TcCoe Idealize.ShloMosaic.ValueIdx

variable {F : FTy → Type} [FloatOps F]

/-- One of six things, chosen by a head number. -/
def pick6 {α : Type} (a0 a1 a2 a3 a4 a5 : α) (h : Fin 6) : α :=
  match h with
  | ⟨0, _⟩ => a0 | ⟨1, _⟩ => a1 | ⟨2, _⟩ => a2 | ⟨3, _⟩ => a3 | ⟨4, _⟩ => a4 | ⟨5, _⟩ => a5
  | ⟨k + 6, hk⟩ => absurd hk (by omega)

/-- Join the heads, project, add the bias, and lay the 2048 rows out as 32 windows of 64 tokens. -/
def finT (o0 o1 o2 o3 o4 o5 : FVec F S32x64x30 .f32) (W2v : Vec F S180x180 .bf16) (b2v : Vec F S1x180 .f32) :
    FVec F S32x64x180 .f32 :=
  have v191 : FVec F S32x64x180 .f32 := concatenate S32x64x180 2 [⟨S32x64x30, o0⟩, ⟨S32x64x30, o1⟩, ⟨S32x64x30, o2⟩, ⟨S32x64x30, o3⟩, ⟨S32x64x30, o4⟩, ⟨S32x64x30, o5⟩] concatenates_S32x64x30_S32x64x30_S32x64x30_S32x64x30_S32x64x30_S32x64x30_S32x64x180_d2
  have v192 : FVec F S32x64x180 .bf16 := truncf .bf16 v191 bitsLt_bf16_f32
  have v193 : FVec F S2048x180 .bf16 := shapeCast S2048x180 v192 shapeCasts_S32x64x180_S2048x180
  have v195 : FVec F S180x180 .bf16 := shapeCast S180x180 W2v shapeCasts_S180x180_S180x180
  have cst_69 : FVec F S2048x180 .f32 := constant S2048x180 .f32 0x00000000#32
  have v196 : FVec F S2048x180 .f32 := matmul dot_S2048x180_S180x180_S2048x180_1_0_0_1_n_n none v193 v195 cst_69
  have v198 : FVec F S180 .f32 := shapeCast S180 b2v shapeCasts_S1x180_S180
  have v199 : FVec F S1x180 .f32 := shapeCast S1x180 v198 shapeCasts_S180_S1x180
  have v200 : FVec F S2048x180 .f32 := broadcastTo S2048x180 v199 broadcasts_S1x180_S2048x180
  have v201 : FVec F S2048x180 .f32 := addf v196 v200
  have v202 : FVec F S32x64x180 .f32 := shapeCast S32x64x180 v201 shapeCasts_S2048x180_S32x64x180
  v202

/-- Left operand's row axis at an output index: the output's row. -/
private theorem finDot_lhs_0 (i : S2048x180.Idx) (q : dot_S2048x180_S180x180_S2048x180_1_0_0_1_n_n.contr.Idx) :
    (dot_S2048x180_S180x180_S2048x180_1_0_0_1_n_n.lhsIdx i q 0).val = (i 0).val := by
  unfold DotDims.lhsIdx
  rw [dif_neg (show ¬(0 : Fin S2048x180.rank) ∈ dot_S2048x180_S180x180_S2048x180_1_0_0_1_n_n.lhsBatch by decide), dif_pos (show (0 : Fin S2048x180.rank) ∈ dot_S2048x180_S180x180_S2048x180_1_0_0_1_n_n.lhsNonContracting by decide)]
  rfl
/-- Left operand's column axis: the contracted coordinate. -/
private theorem finDot_lhs_1 (i : S2048x180.Idx) (q : dot_S2048x180_S180x180_S2048x180_1_0_0_1_n_n.contr.Idx) :
    (dot_S2048x180_S180x180_S2048x180_1_0_0_1_n_n.lhsIdx i q 1).val = (q ⟨0, by decide⟩).val :=
  dot_S2048x180_S180x180_S2048x180_1_0_0_1_n_n.lhsIdx_val_of_single rfl i q
/-- Right operand's row axis: the contracted coordinate. -/
private theorem finDot_rhs_0 (i : S2048x180.Idx) (q : dot_S2048x180_S180x180_S2048x180_1_0_0_1_n_n.contr.Idx) :
    (dot_S2048x180_S180x180_S2048x180_1_0_0_1_n_n.rhsIdx i q 0).val = (q ⟨0, by decide⟩).val :=
  dot_S2048x180_S180x180_S2048x180_1_0_0_1_n_n.rhsIdx_val_of_single rfl i q
/-- Right operand's column axis: the output's column. -/
private theorem finDot_rhs_1 (i : S2048x180.Idx) (q : dot_S2048x180_S180x180_S2048x180_1_0_0_1_n_n.contr.Idx) :
    (dot_S2048x180_S180x180_S2048x180_1_0_0_1_n_n.rhsIdx i q 1).val = (i 1).val := by
  unfold DotDims.rhsIdx
  rw [dif_neg (show ¬(1 : Fin S180x180.rank) ∈ dot_S2048x180_S180x180_S2048x180_1_0_0_1_n_n.rhsBatch by decide), dif_pos (show (1 : Fin S180x180.rank) ∈ dot_S2048x180_S180x180_S2048x180_1_0_0_1_n_n.rhsNonContracting by decide)]
  rfl

theorem finT_apply (o0 o1 o2 o3 o4 o5 : FVec Ideal S32x64x30 .f32) (W2v : FVec Ideal S180x180 .bf16)
    (b2v : FVec Ideal S1x180 .f32) (w : Fin 32) (n : Fin 64) (o : Fin 180) :
    finT (F := Ideal) o0 o1 o2 o3 o4 o5 W2v b2v (ix3 w n o)
      = (∑ c : Fin 180, pick6 o0 o1 o2 o3 o4 o5 (Attn.chHead c) (ix3 w n (Attn.chLane c)) * W2v (ix2 c o))
          + b2v (ix2 (0 : Fin 1) o) := by
  unfold finT
  refine (shapeCast_apply _ shapeCasts_S2048x180_S32x64x180 (ix3 w n o) (ix2 (Attn.row w n) o) ?_).trans ?_
  · rewrite [Shape.rowMajor_val_two, Shape.rowMajor_val_three]
    show (64 * w.val + n.val) * 180 + o.val = (w.val * 64 + n.val) * 180 + o.val
    omega
  refine (addf_apply _ _ _).trans ?_
  refine congrArg₂ (· + ·) ?_ ?_
  · -- the product: the sum over the contracted channel
    refine (Ideal.matmul_constant_zero_apply dot_S2048x180_S180x180_S2048x180_1_0_0_1_n_n none _ _ (ix2 (Attn.row w n) o)).trans ?_
    rw [← Equiv.sum_comp (contrEquiv1 dot_S2048x180_S180x180_S2048x180_1_0_0_1_n_n 180 rfl rfl).symm]
    refine Finset.sum_congr rfl fun c _ => ?_
    have hk := contrEquiv1_symm_val dot_S2048x180_S180x180_S2048x180_1_0_0_1_n_n 180 rfl rfl c
    have el : dot_S2048x180_S180x180_S2048x180_1_0_0_1_n_n.lhsIdx (ix2 (Attn.row w n) o) ((contrEquiv1 dot_S2048x180_S180x180_S2048x180_1_0_0_1_n_n 180 rfl rfl).symm c) = ix2 (Attn.row w n) c := funext fun a => Fin.ext (by
      match a with
      | ⟨0, _⟩ => exact finDot_lhs_0 _ _
      | ⟨1, _⟩ => exact (finDot_lhs_1 _ _).trans hk)
    have er : dot_S2048x180_S180x180_S2048x180_1_0_0_1_n_n.rhsIdx (ix2 (Attn.row w n) o) ((contrEquiv1 dot_S2048x180_S180x180_S2048x180_1_0_0_1_n_n 180 rfl rfl).symm c) = ix2 c o := funext fun a => Fin.ext (by
      match a with
      | ⟨0, _⟩ => exact (finDot_rhs_0 _ _).trans hk
      | ⟨1, _⟩ => exact finDot_rhs_1 _ _)
    rw [el, er]
    refine congrArg₂ (· * ·) ?_ ?_
    · -- row 64 w + n, column c of the 2048 rows is window w, token n, channel c
      refine (shapeCast_apply _ shapeCasts_S32x64x180_S2048x180 (ix2 (Attn.row w n) c) (ix3 w n c) ?_).trans ?_
      · rewrite [Shape.rowMajor_val_two, Shape.rowMajor_val_three]
        show (w.val * 64 + n.val) * 180 + c.val = (64 * w.val + n.val) * 180 + c.val
        omega
      -- narrowing the format is the identity on extended reals; channel c lies in piece c / 30 at lane c mod 30
      show concatenate S32x64x180 2 (List.ofFn fun h : Fin 6 => (⟨S32x64x30, pick6 o0 o1 o2 o3 o4 o5 h⟩ : (s : Shape) × (s.Idx → Ideal .f32))) concatenates_S32x64x30_S32x64x30_S32x64x30_S32x64x30_S32x64x30_S32x64x30_S32x64x180_d2 (ix3 w n c) = _
      exact concatenate_ofFn_apply (t := S32x64x180) (s₁ := S32x64x30) 2 (fun h : Fin 6 => pick6 o0 o1 o2 o3 o4 o5 h) concatenates_S32x64x30_S32x64x30_S32x64x30_S32x64x30_S32x64x30_S32x64x30_S32x64x180_d2 rfl 30 rfl
        (ix3 w n c) (Attn.chHead c) rfl (ix3 w n (Attn.chLane c)) rfl (fun b => match b with
          | ⟨0, _⟩ => fun _ => rfl
          | ⟨1, _⟩ => fun _ => rfl
          | ⟨2, _⟩ => fun hb => absurd rfl hb)
    · exact shapeCast_apply W2v shapeCasts_S180x180_S180x180 (ix2 c o) (ix2 c o) rfl
  · -- the bias row, the same for every one of the 2048 rows
    refine (broadcastTo_apply _ broadcasts_S1x180_S2048x180 (ix2 (Attn.row w n) o) (ix2 (0 : Fin 1) o) ?_).trans ?_
    · intro a
      match a with
      | ⟨0, _⟩ => show (0 : Nat) = if (1 : Nat) = 1 then 0 else (64 * w.val + n.val); rw [if_pos rfl]
      | ⟨1, _⟩ => show o.val = if (180 : Nat) = 1 then 0 else o.val; rw [if_neg (by decide)]
    refine (shapeCast_apply _ shapeCasts_S180_S1x180 (ix2 (0 : Fin 1) o) (ix1 o) ?_).trans ?_
    · rewrite [Shape.rowMajor_val_one, Shape.rowMajor_val_two]
      show o.val = 0 * 180 + o.val
      omega
    refine shapeCast_apply b2v shapeCasts_S1x180_S180 (ix1 o) (ix2 (0 : Fin 1) o) ?_
    rewrite [Shape.rowMajor_val_one, Shape.rowMajor_val_two]
    show 0 * 180 + o.val = o.val
    omega

end Cert.KernelIdeal.KValue

end
-- ==== Proof.KBody.lean ====
/-
  What the kernel's body stores for a block of 32 windows, read at window w, token n, channel o: window
  w's `Attn.outW` of the block's rows, the mask block's window w, the six bias rows, and the two weight
  matrices read transposed.
-/
import proofs.«411040_j36610301231822_3_alg».proof.Proof.Gen.KernelIdeal.Frame
import proofs.«411040_j36610301231822_3_alg».proof.Proof.Spec
import proofs.«411040_j36610301231822_3_alg».proof.Proof.KProj
import proofs.«411040_j36610301231822_3_alg».proof.Proof.KHead
import proofs.«411040_j36610301231822_3_alg».proof.Proof.KFin
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.TcCoe Idealize.ShloMosaic.ValueIdx

section Structure
variable {F : FTy → Type} [FloatOps F]

/-! ## The body's payloads are the projection, six heads and the output projection

Each head of the body, however its statements are grouped into payloads, is the one head term at its three column
offsets of the fused projection; what is stored is the output projection of the six. Both sides are the same chain of
operations, so each equation holds by unfolding the definitions. -/

/-- Head 0: query lanes at column 0, key lanes at 180, value lanes at 360. -/
theorem body_head0_eq (v0 : Vec F S32x64x180 .bf16) (v3 : Vec F S180x540 .bf16) (v6 : Vec F S1x540 .f32)
    (bv : Vec F S1x64x64 .f32) (mv : Vec F S32x64x64 .f32) :
    k0_pay5 (k0_pay3 v0 v3 v6) (k0_pay4 v0 v3 v6 bv mv) (constant S32x64x30 .f32 0x00000000#32)
      = headT 0 180 360 slices_S2048x540_o0_0_S2048x30 slices_S2048x540_o0_180_S2048x30 slices_S2048x540_o0_360_S2048x30
          (k0_pay2 v0 v3 v6) bv mv := rfl

/-- Head 1: columns 30, 210, 390. -/
theorem body_head1_eq (v10 : FVec F S2048x540 .f32) (bv : Vec F S1x64x64 .f32) (mv : Vec F S32x64x64 .f32) :
    k0_pay6 v10 bv mv
      = headT 30 210 390 slices_S2048x540_o0_30_S2048x30 slices_S2048x540_o0_210_S2048x30 slices_S2048x540_o0_390_S2048x30
          v10 bv mv := rfl

/-- Head 2: columns 60, 240, 420. -/
theorem body_head2_eq (v10 : FVec F S2048x540 .f32) (bv : Vec F S1x64x64 .f32) (mv : Vec F S32x64x64 .f32) :
    k0_pay9 (k0_pay7 v10) (k0_pay8 v10) bv mv
      = headT 60 240 420 slices_S2048x540_o0_60_S2048x30 slices_S2048x540_o0_240_S2048x30 slices_S2048x540_o0_420_S2048x30
          v10 bv mv := rfl

/-- Head 3: columns 90, 270, 450. -/
theorem body_head3_eq (v10 : FVec F S2048x540 .f32) (bv : Vec F S1x64x64 .f32) (mv : Vec F S32x64x64 .f32) :
    k0_pay13 (k0_pay10 v10) (k0_pay11 v10 bv mv) (k0_pay12 v10 bv mv)
      = headT 90 270 450 slices_S2048x540_o0_90_S2048x30 slices_S2048x540_o0_270_S2048x30 slices_S2048x540_o0_450_S2048x30
          v10 bv mv := rfl

/-- Head 4: columns 120, 300, 480. -/
theorem body_head4_eq (v10 : FVec F S2048x540 .f32) (bv : Vec F S1x64x64 .f32) (mv : Vec F S32x64x64 .f32) :
    k0_pay14 v10 bv mv
      = headT 120 300 480 slices_S2048x540_o0_120_S2048x30 slices_S2048x540_o0_300_S2048x30 slices_S2048x540_o0_480_S2048x30
          v10 bv mv := rfl

/-- Head 5 (columns 150, 330, 510) and the output projection of the six heads. -/
theorem body_fin_eq (o0 o1 o2 o3 o4 : FVec F S32x64x30 .f32) (v10 : FVec F S2048x540 .f32) (bv : Vec F S1x64x64 .f32)
    (mv : Vec F S32x64x64 .f32) (W2v : Vec F S180x180 .bf16) (b2v : Vec F S1x180 .f32) :
    k0_pay1 o0 o1 o2 o3 o4 (k0_pay15 v10) (k0_pay16 v10) bv mv W2v b2v
      = finT o0 o1 o2 o3 o4
          (headT 150 330 510 slices_S2048x540_o0_150_S2048x30 slices_S2048x540_o0_330_S2048x30 slices_S2048x540_o0_510_S2048x30
            v10 bv mv) W2v b2v := rfl

/-- The three-axis and two-axis all-zero offsets, however spelt. -/
theorem body_hz3 : (![0, 0, 0] : Fin 3 → Nat) = fun _ => 0 :=
  funext fun a => match a with | ⟨0, _⟩ => rfl | ⟨1, _⟩ => rfl | ⟨2, _⟩ => rfl
theorem body_hz2 : (![0, 0] : Fin 2 → Nat) = fun _ => 0 :=
  funext fun a => match a with | ⟨0, _⟩ => rfl | ⟨1, _⟩ => rfl

/-- The body's one store covers the whole buffer, so the buffer holds its payload: the final projection of the six
    heads, each a function of the block's fused projection, one bias row and the mask block. -/
theorem body_out_eq (x0 : Vec F S32x64x180 .bf16) (x1 : Vec F S32x64x64 .f32) (x2 : Vec F S6x64x64 .f32)
    (x3 : Vec F S180x540 .bf16) (x4 : Vec F S1x540 .f32) (x5 : Vec F S180x180 .bf16) (x6 : Vec F S1x180 .f32) :
    out0_7 x0 x1 x2 x3 x4 x5 x6
      = finT
          (headT 0 180 360 slices_S2048x540_o0_0_S2048x30 slices_S2048x540_o0_180_S2048x30 slices_S2048x540_o0_360_S2048x30
            (k0_pay2 x0 x3 x4) (View.ld x2 r0_3) x1)
          (headT 30 210 390 slices_S2048x540_o0_30_S2048x30 slices_S2048x540_o0_210_S2048x30 slices_S2048x540_o0_390_S2048x30
            (k0_pay2 x0 x3 x4) (View.ld x2 r0_5) x1)
          (headT 60 240 420 slices_S2048x540_o0_60_S2048x30 slices_S2048x540_o0_240_S2048x30 slices_S2048x540_o0_420_S2048x30
            (k0_pay2 x0 x3 x4) (View.ld x2 r0_6) x1)
          (headT 90 270 450 slices_S2048x540_o0_90_S2048x30 slices_S2048x540_o0_270_S2048x30 slices_S2048x540_o0_450_S2048x30
            (k0_pay2 x0 x3 x4) (View.ld x2 r0_7) x1)
          (headT 120 300 480 slices_S2048x540_o0_120_S2048x30 slices_S2048x540_o0_300_S2048x30 slices_S2048x540_o0_480_S2048x30
            (k0_pay2 x0 x3 x4) (View.ld x2 r0_8) x1)
          (headT 150 330 510 slices_S2048x540_o0_150_S2048x30 slices_S2048x540_o0_330_S2048x30 slices_S2048x540_o0_510_S2048x30
            (k0_pay2 x0 x3 x4) (View.ld x2 r0_9) x1)
          x5 x6 := by
  unfold out0_7
  rw [View.canon_unit_zero body_hz3]
  rw [View.ld_unit_zero (S := S32x64x180) body_hz3 _ x0, View.ld_unit_zero (S := S180x540) body_hz2 _ x3,
    View.ld_unit_zero (S := S1x540) body_hz2 _ x4, View.ld_unit_zero (S := S32x64x64) body_hz3 _ x1,
    View.ld_unit_zero (S := S180x180) body_hz2 _ x5, View.ld_unit_zero (S := S1x180) body_hz2 _ x6]
  rw [body_head0_eq, body_head1_eq, body_head2_eq, body_head3_eq, body_head4_eq, body_fin_eq]

/-- A load of one bias row: row `r` of the six, read at (0, q, k), is the array at (r, q, k). -/
theorem body_ld_row (B : Vec F S6x64x64 .f32) (r : ℕ) (h : Fin 6) (hr : h.val = r)
    (inb : ∀ a, (![r, 0, 0] : Fin 3 → Nat) a + S1x64x64.size a ≤ S6x64x64.size a) (q k : Fin 64) :
    View.ld B (Rect.unit (s := S6x64x64) ![r, 0, 0] S1x64x64.size inb) (ix3 (0 : Fin 1) q k) = B (ix3 h q k) := by
  subst hr
  show B _ = B _
  congr 1
  funext a
  match a with
  | ⟨0, _⟩ => exact Fin.ext (by show h.val + 1 * 0 = h.val; omega)
  | ⟨1, _⟩ => exact Fin.ext (by show 0 + 1 * q.val = q.val; omega)
  | ⟨2, _⟩ => exact Fin.ext (by show 0 + 1 * k.val = k.val; omega)

end Structure

/-- One head of the body read at window w, token n, lane d: the specification's head `h`, when the three column bands
    start at 30 h, 180 + 30 h, 360 + 30 h and the bias row loaded is row h. -/
theorem body_head_read (oq ok ov : ℕ) (hq : S2048x540.Slices ![0, oq] S2048x30) (hk : S2048x540.Slices ![0, ok] S2048x30)
    (hv : S2048x540.Slices ![0, ov] S2048x30) (r : ℕ) (h : Fin 6) (hr : h.val = r)
    (hoq : oq = 30 * r) (hok : ok = 180 + 30 * r) (hov : ov = 360 + 30 * r)
    (inb : ∀ a, (![r, 0, 0] : Fin 3 → Nat) a + S1x64x64.size a ≤ S6x64x64.size a)
    (X : Vec Ideal S32x64x180 .bf16) (M : Vec Ideal S32x64x64 .f32) (B : Vec Ideal S6x64x64 .f32)
    (W1 : Vec Ideal S180x540 .bf16) (b1 : Vec Ideal S1x540 .f32) (w : Fin 32) (n : Fin 64) (d : Fin 30) :
    headT (F := Ideal) oq ok ov hq hk hv (k0_pay2 X W1 b1)
        (View.ld B (Rect.unit (s := S6x64x64) ![r, 0, 0] S1x64x64.size inb)) M (ix3 w n d)
      = Attn.headOut
          (Attn.proj (fun n c => X (ix3 w n c)) (fun j c => W1 (ix2 c j)) (fun j => b1 (ix2 (0 : Fin 1) j)))
          (fun h q k => B (ix3 h q k)) (fun q k => M (ix3 w q k)) Attn.scaleQ Attn.negInf h n d := by
  have hQ : (fun n j => k0_pay2 (F := Ideal) X W1 b1 (ix2 (Attn.row w n) j))
      = Attn.proj (fun n c => X (ix3 w n c)) (fun j c => W1 (ix2 c j)) (fun j => b1 (ix2 (0 : Fin 1) j)) :=
    funext fun n => funext fun j => k_proj X W1 b1 w n j
  have hB : (fun q k => View.ld B (Rect.unit (s := S6x64x64) ![r, 0, 0] S1x64x64.size inb) (ix3 (0 : Fin 1) q k))
      = (fun q k => B (ix3 h q k)) :=
    funext fun q => funext fun k => body_ld_row B r h hr inb q k
  rw [headT_apply oq ok ov hq hk hv (Attn.col 0 h) (Attn.col 1 h) (Attn.col 2 h)
    (fun d => by rw [Attn.col_val, hr, hoq]; show 180 * 0 + 30 * r + d.val = 30 * r + d.val; omega)
    (fun d => by rw [Attn.col_val, hr, hok]; show 180 * 1 + 30 * r + d.val = 180 + 30 * r + d.val; omega)
    (fun d => by rw [Attn.col_val, hr, hov]; show 180 * 2 + 30 * r + d.val = 360 + 30 * r + d.val; omega),
    hQ, hB]
  rfl

/-- The six heads side by side, read at head h's lane d. -/
theorem body_pick_read (X : Vec Ideal S32x64x180 .bf16) (M : Vec Ideal S32x64x64 .f32) (B : Vec Ideal S6x64x64 .f32)
    (W1 : Vec Ideal S180x540 .bf16) (b1 : Vec Ideal S1x540 .f32) (w : Fin 32) (n : Fin 64) (h : Fin 6) (d : Fin 30) :
    pick6
        (headT (F := Ideal) 0 180 360 slices_S2048x540_o0_0_S2048x30 slices_S2048x540_o0_180_S2048x30 slices_S2048x540_o0_360_S2048x30
          (k0_pay2 X W1 b1) (View.ld B r0_3) M)
        (headT 30 210 390 slices_S2048x540_o0_30_S2048x30 slices_S2048x540_o0_210_S2048x30 slices_S2048x540_o0_390_S2048x30
          (k0_pay2 X W1 b1) (View.ld B r0_5) M)
        (headT 60 240 420 slices_S2048x540_o0_60_S2048x30 slices_S2048x540_o0_240_S2048x30 slices_S2048x540_o0_420_S2048x30
          (k0_pay2 X W1 b1) (View.ld B r0_6) M)
        (headT 90 270 450 slices_S2048x540_o0_90_S2048x30 slices_S2048x540_o0_270_S2048x30 slices_S2048x540_o0_450_S2048x30
          (k0_pay2 X W1 b1) (View.ld B r0_7) M)
        (headT 120 300 480 slices_S2048x540_o0_120_S2048x30 slices_S2048x540_o0_300_S2048x30 slices_S2048x540_o0_480_S2048x30
          (k0_pay2 X W1 b1) (View.ld B r0_8) M)
        (headT 150 330 510 slices_S2048x540_o0_150_S2048x30 slices_S2048x540_o0_330_S2048x30 slices_S2048x540_o0_510_S2048x30
          (k0_pay2 X W1 b1) (View.ld B r0_9) M)
        h (ix3 w n d)
      = Attn.headOut
          (Attn.proj (fun n c => X (ix3 w n c)) (fun j c => W1 (ix2 c j)) (fun j => b1 (ix2 (0 : Fin 1) j)))
          (fun h q k => B (ix3 h q k)) (fun q k => M (ix3 w q k)) Attn.scaleQ Attn.negInf h n d := by
  match h with
  | ⟨0, _⟩ => exact body_head_read 0 180 360 _ _ _ 0 ⟨0, _⟩ rfl rfl rfl rfl _ X M B W1 b1 w n d
  | ⟨1, _⟩ => exact body_head_read 30 210 390 _ _ _ 1 ⟨1, _⟩ rfl rfl rfl rfl _ X M B W1 b1 w n d
  | ⟨2, _⟩ => exact body_head_read 60 240 420 _ _ _ 2 ⟨2, _⟩ rfl rfl rfl rfl _ X M B W1 b1 w n d
  | ⟨3, _⟩ => exact body_head_read 90 270 450 _ _ _ 3 ⟨3, _⟩ rfl rfl rfl rfl _ X M B W1 b1 w n d
  | ⟨4, _⟩ => exact body_head_read 120 300 480 _ _ _ 4 ⟨4, _⟩ rfl rfl rfl rfl _ X M B W1 b1 w n d
  | ⟨5, _⟩ => exact body_head_read 150 330 510 _ _ _ 5 ⟨5, _⟩ rfl rfl rfl rfl _ X M B W1 b1 w n d
  | ⟨k + 6, hk⟩ => exact absurd hk (by omega)

/-- The stored block at window w, token n, channel o: the sum over the 180 channels of head `c / 30`'s lane `c mod 30`
    times the output weight, plus the output bias, each head being the specification's head of window w. -/
theorem body_apply (X : Vec Ideal S32x64x180 .bf16) (M : Vec Ideal S32x64x64 .f32) (B : Vec Ideal S6x64x64 .f32)
    (W1 : Vec Ideal S180x540 .bf16) (b1 : Vec Ideal S1x540 .f32) (W2 : Vec Ideal S180x180 .bf16) (b2 : Vec Ideal S1x180 .f32)
    (w : Fin 32) (n : Fin 64) (o : Fin 180) :
    out0_7 (F := Ideal) X M B W1 b1 W2 b2 (ix3 w n o)
      = Attn.outW (fun n c => X (ix3 w n c)) (fun q k => M (ix3 w q k))
          (fun j c => W1 (ix2 c j)) (fun j => b1 (ix2 (0 : Fin 1) j))
          (fun h q k => B (ix3 h q k))
          (fun o c => W2 (ix2 c o)) (fun o => b2 (ix2 (0 : Fin 1) o)) Attn.scaleQ Attn.negInf n o := by
  rw [body_out_eq, finT_apply]
  unfold Attn.outW
  refine congrArg (· + b2 (ix2 (0 : Fin 1) o)) (Finset.sum_congr rfl fun c _ => ?_)
  rw [body_pick_read]

end Cert.KernelIdeal.KValue

end
-- ==== Proof.KHost.lean ====
/-
  The arrays the kernel's windows stage, as the host operations before the launch leave them, in terms of
  the program's arguments: the activations unchanged (a change of float format is the identity here), the
  two weight matrices transposed, the two bias vectors as one-row matrices, and the relative-position bias,
  which is the very chain of operations (index wrap, row gather, reshape, transpose) the reference applies.
-/
import proofs.«411040_j36610301231822_3_alg».proof.Proof.Gen.ReferenceIdeal.Read
import proofs.«411040_j36610301231822_3_alg».proof.Proof.Gen.KernelIdeal.Frame
import proofs.«411040_j36610301231822_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

theorem host_x (i : S4096x64x180.Idx) :
    (V m c main_v16 : S4096x64x180.Idx → EReal) i = (m ((c : Thread nD τ).loc main_arg0) : S4096x64x180.Idx → EReal) i := by
  -- the one operation that writes this array is a change of float format, the identity on extended reals
  have e : (V m c main_v16 : S4096x64x180.Idx → EReal) = (m ((c : Thread nD τ).loc main_arg0) : S4096x64x180.Idx → EReal) := by
    dsimp only [Gen.V, Gen.hostOps0]
    after_results
    rfl
  rw [e]

theorem host_w1 (cc : Fin 180) (j : Fin 540) :
    (V m c main_v11 : S180x540.Idx → EReal) (ix2 cc j) = (m ((c : Thread nD τ).loc main_arg3) : S540x180.Idx → EReal) (ix2 j cc) := by
  -- the array is the transpose of the argument, then a change of float format (the identity here)
  have e : (V m c main_v11 : S180x540.Idx → EReal)
      = truncf (F := Ideal) .bf16 (transpose S180x540 [1, 0] (m ((c : Thread nD τ).loc main_arg3) : S540x180.Idx → EReal) transposes_S540x180_S180x540_1_0) bitsLt_bf16_f32 := by
    dsimp only [Gen.V, Gen.hostOps0]
    after_results
  refine (congrFun e (ix2 cc j)).trans ?_
  -- a transpose by [1, 0] read at (cc, j) is the operand at (j, cc)
  exact transpose_apply [1, 0] _ transposes_S540x180_S180x540_1_0 (ix2 cc j) (ix2 j cc) (fun b => match b with
    | ⟨0, _⟩ => rfl
    | ⟨1, _⟩ => rfl)

theorem host_w2 (cc o : Fin 180) :
    (V m c main_v13 : S180x180.Idx → EReal) (ix2 cc o) = (m ((c : Thread nD τ).loc main_arg6) : S180x180.Idx → EReal) (ix2 o cc) := by
  -- the array is the transpose of the argument, then a change of float format (the identity here)
  have e : (V m c main_v13 : S180x180.Idx → EReal)
      = truncf (F := Ideal) .bf16 (transpose S180x180 [1, 0] (m ((c : Thread nD τ).loc main_arg6) : S180x180.Idx → EReal) transposes_S180x180_S180x180_1_0) bitsLt_bf16_f32 := by
    dsimp only [Gen.V, Gen.hostOps0]
    after_results
  refine (congrFun e (ix2 cc o)).trans ?_
  -- a transpose by [1, 0] read at (cc, o) is the operand at (o, cc)
  exact transpose_apply [1, 0] _ transposes_S180x180_S180x180_1_0 (ix2 cc o) (ix2 o cc) (fun b => match b with
    | ⟨0, _⟩ => rfl
    | ⟨1, _⟩ => rfl)

theorem host_b1 (j : Fin 540) :
    (V m c main_v14 : S1x540.Idx → EReal) (ix2 (0 : Fin 1) j) = (m ((c : Thread nD τ).loc main_arg4) : S540.Idx → EReal) (ix1 j) := by
  -- the array is the argument vector reshaped to one row
  have e : (V m c main_v14 : S1x540.Idx → EReal)
      = shapeCast S1x540 (m ((c : Thread nD τ).loc main_arg4) : S540.Idx → EReal) shapeCasts_S540_S1x540 := by
    dsimp only [Gen.V, Gen.hostOps0]
    after_results
    rfl
  refine (congrFun e (ix2 (0 : Fin 1) j)).trans ?_
  -- entry (0, j) of the row and entry j of the vector have the same row-major position: 0 * 540 + j = j
  exact shapeCast_apply _ shapeCasts_S540_S1x540 (ix2 (0 : Fin 1) j) (ix1 j)
    (by rw [Shape.rowMajor_val_one, Shape.rowMajor_val_two]; show j.val = 0 * 540 + j.val; omega)

theorem host_b2 (o : Fin 180) :
    (V m c main_v15 : S1x180.Idx → EReal) (ix2 (0 : Fin 1) o) = (m ((c : Thread nD τ).loc main_arg7) : S180.Idx → EReal) (ix1 o) := by
  -- the array is the argument vector reshaped to one row
  have e : (V m c main_v15 : S1x180.Idx → EReal)
      = shapeCast S1x180 (m ((c : Thread nD τ).loc main_arg7) : S180.Idx → EReal) shapeCasts_S180_S1x180 := by
    dsimp only [Gen.V, Gen.hostOps0]
    after_results
    rfl
  refine (congrFun e (ix2 (0 : Fin 1) o)).trans ?_
  -- entry (0, o) of the row and entry o of the vector have the same row-major position: 0 * 180 + o = o
  exact shapeCast_apply _ shapeCasts_S180_S1x180 (ix2 (0 : Fin 1) o) (ix1 o)
    (by rw [Shape.rowMajor_val_one, Shape.rowMajor_val_two]; show o.val = 0 * 180 + o.val; omega)

theorem host_mask (i : S64x64x64.Idx) :
    (V m c main_arg2 : S64x64x64.Idx → EReal) i = (m ((c : Thread nD τ).loc main_arg2) : S64x64x64.Idx → EReal) i := by
  -- no operation before the launch writes the mask array
  rw [V_main_arg2]

/-- The bias array the kernel stages is the reference's bias stage of the same two arguments. -/
theorem host_bias :
    (V m c main_v9 : S6x64x64.Idx → EReal)
      = Cert.ReferenceIdeal.Read.val_main_v26 (F := Ideal) (m ((c : Thread nD τ).loc main_arg1)) (m ((c : Thread nD τ).loc main_arg5)) := by
  -- both sides are the same ten operations (index wrap by compare, add and select; row gather; reshape;
  -- transpose by [2, 0, 1]) applied to the same two arguments: unfold each side to that term
  dsimp only [Gen.V, Gen.hostOps0]
  after_results
  unfold Cert.ReferenceIdeal.Read.val_main_v26 Cert.ReferenceIdeal.Read.val_main_v25 Cert.ReferenceIdeal.Read.val_main_v24
    Cert.ReferenceIdeal.Read.val_main_v23 Cert.ReferenceIdeal.Read.val_main_v22 Cert.ReferenceIdeal.Read.val_main_v21
    Cert.ReferenceIdeal.Read.val_main_v20 Cert.ReferenceIdeal.Read.val_main_v19 Cert.ReferenceIdeal.Read.val_main_v18
    Cert.ReferenceIdeal.Read.val_main_v17 Cert.ReferenceIdeal.Read.val_main_c Cert.ReferenceIdeal.Read.val_main_c_0
  rfl

end Cert.KernelIdeal.KValue

end
-- ==== Proof.KBlocks.lean ====
/-
  From blocks to the array.  Grid point t stages windows 32 t … 32 t + 31 of the activations, the mask
  block `t mod 2` (windows 32 (t mod 2) … of the 64 masks, so window 32 t + w meets mask (32 t + w) mod 64),
  and the five small arrays whole; it writes back windows 32 t … 32 t + 31 of the result.  What it writes is
  the body's value, which at (w, n, o) is window (32 t + w)'s `Attn.outW`; the 128 points' blocks tile the
  4096 windows, so the result array is `Attn.G` of the program's arguments.
-/
import proofs.«411040_j36610301231822_3_alg».proof.Proof.Gen.KernelIdeal.Value
import proofs.«411040_j36610301231822_3_alg».proof.Proof.Spec
import proofs.«411040_j36610301231822_3_alg».proof.Proof.SpecArr
import proofs.«411040_j36610301231822_3_alg».proof.Proof.KBody
import proofs.«411040_j36610301231822_3_alg».proof.Proof.KHost
import Idealize.ShloMosaic.Lib.ValueIdx
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array of core `c` as a function of the program's arguments there. -/
def GK (c : Dev nD) : S4096x64x180.Idx → EReal :=
  Attn.G (m ((c : Thread nD τ).loc main_arg0)) (m ((c : Thread nD τ).loc main_arg2))
    (m ((c : Thread nD τ).loc main_arg3)) (m ((c : Thread nD τ).loc main_arg4))
    (Cert.ReferenceIdeal.Read.val_main_v26 (F := Ideal) (m ((c : Thread nD τ).loc main_arg1)) (m ((c : Thread nD τ).loc main_arg5)))
    (m ((c : Thread nD τ).loc main_arg6)) (m ((c : Thread nD τ).loc main_arg7))

/-- One point's block against the arrays: if the staged blocks are windows `b`'s rows, mask and the small
    arrays (transposed where the kernel holds them so), the body's value at (w, n, o) is entry (b, n, o). -/
theorem point_eq (X : Vec Ideal S32x64x180 .bf16) (M : Vec Ideal S32x64x64 .f32) (B : Vec Ideal S6x64x64 .f32)
    (W1 : Vec Ideal S180x540 .bf16) (b1 : Vec Ideal S1x540 .f32) (W2 : Vec Ideal S180x180 .bf16) (b2 : Vec Ideal S1x180 .f32)
    (x0 : S4096x64x180.Idx → EReal) (x2 : S64x64x64.Idx → EReal) (x3 : S540x180.Idx → EReal) (x4 : S540.Idx → EReal)
    (bias : S6x64x64.Idx → EReal) (x6 : S180x180.Idx → EReal) (x7 : S180.Idx → EReal)
    (b : Fin 4096) (w : Fin 32)
    (hX : ∀ n c, X (ix3 w n c) = x0 (ix3 b n c)) (hM : ∀ q k, M (ix3 w q k) = x2 (ix3 (Attn.wmod b) q k))
    (hB : ∀ h q k, B (ix3 h q k) = bias (ix3 h q k))
    (hW1 : ∀ c j, W1 (ix2 c j) = x3 (ix2 j c)) (hb1 : ∀ j, b1 (ix2 (0 : Fin 1) j) = x4 (ix1 j))
    (hW2 : ∀ c o, W2 (ix2 c o) = x6 (ix2 o c)) (hb2 : ∀ o, b2 (ix2 (0 : Fin 1) o) = x7 (ix1 o))
    (n : Fin 64) (o : Fin 180) :
    out0_7 (F := Ideal) X M B W1 b1 W2 b2 (ix3 w n o) = Attn.G x0 x2 x3 x4 bias x6 x7 (ix3 b n o) := by
  rw [body_apply, Attn.G_ix3]
  unfold Attn.gAt
  congr 1
  · funext n c; exact hX n c
  · funext q k; exact hM q k
  · funext j c; exact hW1 c j
  · funext j; exact hb1 j
  · funext h q k; exact hB h q k
  · funext o c; exact hW2 c o
  · funext o; exact hb2 o

/-- The printed index maps, decided over the 128 grid points: the activations and the result move one
    block per point, the mask alternates between its two blocks, the small arrays stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val % 2 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- Window `32 t + w` of the 4096. -/
def winOf (t : Fin cfg0.N) (w : Fin 32) : Fin 4096 :=
  ⟨32 * t.val + w.val, by have ht : t.val < 128 := t.isLt; have := w.isLt; omega⟩

theorem winOf_val (t : Fin cfg0.N) (w : Fin 32) : (winOf t w).val = 32 * t.val + w.val := rfl

/-- WHAT POINT `t` WRITES BACK is block `t` of the result function. -/
theorem flushed_eq (c : Dev nD) (t : Fin cfg0.N) :
    (dats m 0 c).flushed 7 t = ((cfg0.win 7).blk t).view.read (Elt Ideal) (GK m c) := by
  rw [Value.flushed7]
  obtain ⟨e00, e01, e02, e10, e11, e12, e20, e21, e22, e30, e31, e40, e41, e50, e51, e60, e61, e70, e71, e72⟩ := idx_facts t
  have ht : t.val < 128 := t.isLt
  funext y
  obtain ⟨w, n, o, rfl⟩ : ∃ (w : Fin 32) (n : Fin 64) (o : Fin 180), y = ix3 w n o :=
    ⟨⟨(y 0).val, (y 0).isLt⟩, ⟨(y 1).val, (y 1).isLt⟩, ⟨(y 2).val, (y 2).isLt⟩,
      funext fun a => by match a with | ⟨0, _⟩ => rfl | ⟨1, _⟩ => rfl | ⟨2, _⟩ => rfl⟩
  show out0_7 (iblk m c 0 t) (iblk m c 1 t) (iblk m c 2 t) (iblk m c 3 t) (iblk m c 4 t) (iblk m c 5 t) (iblk m c 6 t) (ix3 w n o)
      = GK m c (((cfg0.win 7).blk t).view.emb (ix3 w n o))
  have hout : ((cfg0.win 7).blk t).view.emb (ix3 w n o) = ix3 (winOf t w) n o := by
    funext a; apply Fin.ext
    match a with
    | ⟨0, _⟩ => show win0_7.index t (0 : Fin 3) * 32 + 1 * w.val = 32 * t.val + w.val; omega
    | ⟨1, _⟩ => show win0_7.index t (1 : Fin 3) * 64 + 1 * n.val = n.val; omega
    | ⟨2, _⟩ => show win0_7.index t (2 : Fin 3) * 180 + 1 * o.val = o.val; omega
  rw [hout]
  refine point_eq (iblk m c 0 t) (iblk m c 1 t) (iblk m c 2 t) (iblk m c 3 t) (iblk m c 4 t) (iblk m c 5 t) (iblk m c 6 t)
    _ _ _ _ _ _ _ (winOf t w) w ?_ ?_ ?_ ?_ ?_ ?_ ?_ n o
  · intro n c'
    show V m c main_v16 (((cfg0.win 0).blk t).view.emb (ix3 w n c')) = _
    rw [show ((cfg0.win 0).blk t).view.emb (ix3 w n c') = ix3 (winOf t w) n c' from by
      funext a; apply Fin.ext
      match a with
      | ⟨0, _⟩ => show win0_0.index t (0 : Fin 3) * 32 + 1 * w.val = 32 * t.val + w.val; omega
      | ⟨1, _⟩ => show win0_0.index t (1 : Fin 3) * 64 + 1 * n.val = n.val; omega
      | ⟨2, _⟩ => show win0_0.index t (2 : Fin 3) * 180 + 1 * c'.val = c'.val; omega]
    exact host_x m c _
  · intro q k
    show V m c main_arg2 (((cfg0.win 1).blk t).view.emb (ix3 w q k)) = _
    rw [show ((cfg0.win 1).blk t).view.emb (ix3 w q k) = ix3 (Attn.wmod (winOf t w)) q k from by
      funext a; apply Fin.ext
      have hw := w.isLt
      match a with
      | ⟨0, _⟩ => show win0_1.index t (0 : Fin 3) * 32 + 1 * w.val = (32 * t.val + w.val) % 64; omega
      | ⟨1, _⟩ => show win0_1.index t (1 : Fin 3) * 64 + 1 * q.val = q.val; omega
      | ⟨2, _⟩ => show win0_1.index t (2 : Fin 3) * 64 + 1 * k.val = k.val; omega]
    exact host_mask m c _
  · intro h q k
    show V m c main_v9 (((cfg0.win 2).blk t).view.emb (ix3 h q k)) = _
    rw [show ((cfg0.win 2).blk t).view.emb (ix3 h q k) = ix3 h q k from by
      funext a; apply Fin.ext
      match a with
      | ⟨0, _⟩ => show win0_2.index t (0 : Fin 3) * 6 + 1 * h.val = h.val; omega
      | ⟨1, _⟩ => show win0_2.index t (1 : Fin 3) * 64 + 1 * q.val = q.val; omega
      | ⟨2, _⟩ => show win0_2.index t (2 : Fin 3) * 64 + 1 * k.val = k.val; omega]
    exact congrFun (host_bias m c) _
  · intro c' j
    show V m c main_v11 (((cfg0.win 3).blk t).view.emb (ix2 c' j)) = _
    rw [show ((cfg0.win 3).blk t).view.emb (ix2 c' j) = ix2 c' j from by
      funext a; apply Fin.ext
      match a with
      | ⟨0, _⟩ => show win0_3.index t (0 : Fin 2) * 180 + 1 * c'.val = c'.val; omega
      | ⟨1, _⟩ => show win0_3.index t (1 : Fin 2) * 540 + 1 * j.val = j.val; omega]
    exact host_w1 m c c' j
  · intro j
    show V m c main_v14 (((cfg0.win 4).blk t).view.emb (ix2 (0 : Fin 1) j)) = _
    rw [show ((cfg0.win 4).blk t).view.emb (ix2 (0 : Fin 1) j) = ix2 (0 : Fin 1) j from by
      funext a; apply Fin.ext
      match a with
      | ⟨0, _⟩ => show win0_4.index t (0 : Fin 2) * 1 + 1 * 0 = 0; omega
      | ⟨1, _⟩ => show win0_4.index t (1 : Fin 2) * 540 + 1 * j.val = j.val; omega]
    exact host_b1 m c j
  · intro c' o'
    show V m c main_v13 (((cfg0.win 5).blk t).view.emb (ix2 c' o')) = _
    rw [show ((cfg0.win 5).blk t).view.emb (ix2 c' o') = ix2 c' o' from by
      funext a; apply Fin.ext
      match a with
      | ⟨0, _⟩ => show win0_5.index t (0 : Fin 2) * 180 + 1 * c'.val = c'.val; omega
      | ⟨1, _⟩ => show win0_5.index t (1 : Fin 2) * 180 + 1 * o'.val = o'.val; omega]
    exact host_w2 m c c' o'
  · intro o'
    show V m c main_v15 (((cfg0.win 6).blk t).view.emb (ix2 (0 : Fin 1) o')) = _
    rw [show ((cfg0.win 6).blk t).view.emb (ix2 (0 : Fin 1) o') = ix2 (0 : Fin 1) o' from by
      funext a; apply Fin.ext
      match a with
      | ⟨0, _⟩ => show win0_6.index t (0 : Fin 2) * 1 + 1 * 0 = 0; omega
      | ⟨1, _⟩ => show win0_6.index t (1 : Fin 2) * 180 + 1 * o'.val = o'.val; omega]
    exact host_b2 m c o'

/-- An index of the result array is in point `t`'s block iff each coordinate is in the block's range. -/
theorem mem_blk (t : Fin cfg0.N) (i : S4096x64x180.Idx) :
    i ∈ ((cfg0.win 7).blk t).view.set ↔ ∀ a : Fin 3, win0_7.index t a * S32x64x180.size a ≤ (i a).val ∧ (i a).val < win0_7.index t a * S32x64x180.size a + S32x64x180.size a := by
  show i ∈ ((View.whole main_v17).slice (win0_7.rect t)).set ↔ _
  rw [View.set_slice_whole, Rect.mem_set_unit]
  exact Iff.rfl

/-- Every index of the result array lies in the block of the point that holds its window: point `b / 32`. -/
theorem cover (i : S4096x64x180.Idx) :
    ∃ t : Fin cfg0.N, (cfg0.win 7).flush t = true ∧ i ∈ ((cfg0.win 7).blk t).view.set := by
  have hi0 : (i 0).val < 4096 := (i 0).isLt
  have hi1 : (i 1).val < 64 := (i 1).isLt
  have hi2 : (i 2).val < 180 := (i 2).isLt
  let t : Fin cfg0.N := ⟨(i 0).val / 32, by show (i 0).val / 32 < 128; omega⟩
  obtain ⟨-, -, -, -, -, -, -, -, -, -, -, -, -, -, -, -, -, e70, e71, e72⟩ := idx_facts t
  have ht : t.val = (i 0).val / 32 := rfl
  refine ⟨t, flush0_7 t, ?_⟩
  rw [mem_blk]
  intro a
  match a with
  | ⟨0, _⟩ => show win0_7.index t (0 : Fin 3) * 32 ≤ (i 0).val ∧ (i 0).val < win0_7.index t (0 : Fin 3) * 32 + 32; omega
  | ⟨1, _⟩ => show win0_7.index t (1 : Fin 3) * 64 ≤ (i 1).val ∧ (i 1).val < win0_7.index t (1 : Fin 3) * 64 + 64; omega
  | ⟨2, _⟩ => show win0_7.index t (2 : Fin 3) * 180 ≤ (i 2).val ∧ (i 2).val < win0_7.index t (2 : Fin 3) * 180 + 180; omega

/-- The result array after the run is the result function of the arguments. -/
theorem final (c : Dev nD) : (dats m 0 c).arrAt 7 cfg0.N = GK m c :=
  (dats m 0 c).arrAt_eq_of_cover 7 (GK m c) (fun t _ => flushed_eq m c t) cover

/-- The kernel's run, read: the result array at the result function, the arguments unchanged. -/
theorem run : θ_run defs (onTc (τ := τ) (main (F := Ideal))) ⟨m, fun _ => 0, ρ⟩ fun r => ∀ c : Dev nD,
      r.2.mem ((c : Thread nD τ).loc main_v17) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.KValue

end
-- ==== Proof.RefProj.lean ====
/-
  The reference's fused projection and its three parts, read at coordinates: entry (b, n, j) of the
  projection is window b's `Attn.proj`; the query, key and value arrays at (b, h, n, d) are the
  projection's columns `col 0 h d` (scaled), `col 1 h d` and `col 2 h d` of row (b, n).
-/
import proofs.«411040_j36610301231822_3_alg».proof.Proof.Gen.ReferenceIdeal.Read
import proofs.«411040_j36610301231822_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-- The projection with its bias added, at window `b`, token `n`, column `j`. -/
theorem ref_proj (x0 : (⟨S4096x64x180, .f32⟩ : BufTy).Contents (Elt Ideal)) (x3 : (⟨S540x180, .f32⟩ : BufTy).Contents (Elt Ideal)) (x4 : (⟨S540, .f32⟩ : BufTy).Contents (Elt Ideal)) (b : Fin 4096) (n : Fin 64) (j : Fin 540) :
    val_main_v3 (F := Ideal) x0 x3 x4 (ix3 b n j)
      = Attn.proj (fun n c => x0 (ix3 b n c)) (fun j c => x3 (ix2 j c)) (fun j => x4 (ix1 j)) n j := by
  -- The sum of the contraction plus the broadcast bias, each read at (b, n, j).
  rw [val_main_v3_apply, val_main_v0_apply, val_main_v2_apply, val_main_v1_apply]
  unfold Attn.proj
  -- The left operand is read at (b, n, k), the right at (j, k), the bias at j.
  have el : ∀ k : Fin 180, lidx_main_v0 (ix3 b n j) k = ix3 b n k := fun k => funext fun a => by
    match a with
    | ⟨0, _⟩ => rfl
    | ⟨1, _⟩ => rfl
    | ⟨2, _⟩ => rfl
  have er : ∀ k : Fin 180, ridx_main_v0 (ix3 b n j) k = ix2 j k := fun k => funext fun a => by
    match a with
    | ⟨0, _⟩ => rfl
    | ⟨1, _⟩ => rfl
  have eb : idx_main_v1 (idx_main_v2 (ix3 b n j)) = ix1 j := funext fun a => by
    match a with
    | ⟨0, _⟩ => rfl
  have es : (∑ k : Fin 180, x0 (lidx_main_v0 (ix3 b n j) k) * x3 (ridx_main_v0 (ix3 b n j) k))
      = ∑ c : Fin 180, x0 (ix3 b n c) * x3 (ix2 j c) :=
    Finset.sum_congr rfl fun k _ => by rw [el k, er k]
  rw [es, eb]
  -- Over the extended reals the float sum is the sum.
  rfl

/-- The scaled query array: head `h`, token `n`, lane `d` of window `b`. -/
theorem ref_q (x0 : (⟨S4096x64x180, .f32⟩ : BufTy).Contents (Elt Ideal)) (x3 : (⟨S540x180, .f32⟩ : BufTy).Contents (Elt Ideal)) (x4 : (⟨S540, .f32⟩ : BufTy).Contents (Elt Ideal)) (b : Fin 4096) (h : Fin 6) (n : Fin 64) (d : Fin 30) :
    val_main_v9 (F := Ideal) x0 x3 x4 (ix4 b h n d)
      = val_main_v3 (F := Ideal) x0 x3 x4 (ix3 b n (Attn.col 0 h d)) * Attn.scaleQ := by
  -- Product of the transposed, reshaped, sliced, reshaped projection with the broadcast scale word.
  rw [val_main_v9_apply, val_main_v7_apply, val_main_v6_apply, val_main_v5_apply, val_main_v4_apply,
    val_main_v8_apply, val_main_cst_apply]
  -- The index composed by the four layout steps is (b, n, col 0 h d).  With P the row-major position of
  -- (b, n, h, d) in [4096, 64, 6, 30], the reshape that drops the unit axis reads (P / 11520, P / 180 % 64, 0,
  -- P / 30 % 6, P % 30), the slice moves the third coordinate to part 0, and the position of that index in
  -- [4096, 64, 3, 6, 30] is split over [4096, 64, 540] by / 34560, / 540 % 64 and % 540: each coordinate is
  -- arithmetic of bounded naturals.
  have ei : idx_main_v4 (idx_main_v5 (idx_main_v6 (idx_main_v7 (ix4 b h n d)))) = ix3 b n (Attn.col 0 h d) :=
    funext fun a => Fin.ext (by
      have hb : b.val < 4096 := b.isLt
      have hh : h.val < 6 := h.isLt
      have hn : n.val < 64 := n.isLt
      have hd : d.val < 30 := d.isLt
      match a with
      | ⟨0, _⟩ => show ((((((((b.val * 64 + n.val) * 6 + h.val) * 30 + d.val) / 11520) * 64 + (((b.val * 64 + n.val) * 6 + h.val) * 30 + d.val) / 180 % 64) * 3 + (0)) * 6 + (((b.val * 64 + n.val) * 6 + h.val) * 30 + d.val) / 30 % 6) * 30 + (((b.val * 64 + n.val) * 6 + h.val) * 30 + d.val) % 30) / 34560 = b.val; omega
      | ⟨1, _⟩ => show ((((((((b.val * 64 + n.val) * 6 + h.val) * 30 + d.val) / 11520) * 64 + (((b.val * 64 + n.val) * 6 + h.val) * 30 + d.val) / 180 % 64) * 3 + (0)) * 6 + (((b.val * 64 + n.val) * 6 + h.val) * 30 + d.val) / 30 % 6) * 30 + (((b.val * 64 + n.val) * 6 + h.val) * 30 + d.val) % 30) / 540 % 64 = n.val; omega
      | ⟨2, _⟩ => show ((((((((b.val * 64 + n.val) * 6 + h.val) * 30 + d.val) / 11520) * 64 + (((b.val * 64 + n.val) * 6 + h.val) * 30 + d.val) / 180 % 64) * 3 + (0)) * 6 + (((b.val * 64 + n.val) * 6 + h.val) * 30 + d.val) / 30 % 6) * 30 + (((b.val * 64 + n.val) * 6 + h.val) * 30 + d.val) % 30) % 540 = 180 * 0 + 30 * h.val + d.val; omega)
  rw [ei]
  -- Over the extended reals the float product is the product and the scale word is `Attn.scaleQ`.
  rfl

/-- The key array. -/
theorem ref_k (x0 : (⟨S4096x64x180, .f32⟩ : BufTy).Contents (Elt Ideal)) (x3 : (⟨S540x180, .f32⟩ : BufTy).Contents (Elt Ideal)) (x4 : (⟨S540, .f32⟩ : BufTy).Contents (Elt Ideal)) (b : Fin 4096) (h : Fin 6) (n : Fin 64) (d : Fin 30) :
    val_main_v12 (F := Ideal) x0 x3 x4 (ix4 b h n d)
      = val_main_v3 (F := Ideal) x0 x3 x4 (ix3 b n (Attn.col 1 h d)) := by
  rw [val_main_v12_apply, val_main_v11_apply, val_main_v10_apply, val_main_v4_apply]
  -- The index composed by the four layout steps is (b, n, col 1 h d).  With P the row-major position of
  -- (b, n, h, d) in [4096, 64, 6, 30], the reshape that drops the unit axis reads (P / 11520, P / 180 % 64, 0,
  -- P / 30 % 6, P % 30), the slice moves the third coordinate to part 1, and the position of that index in
  -- [4096, 64, 3, 6, 30] is split over [4096, 64, 540] by / 34560, / 540 % 64 and % 540: each coordinate is
  -- arithmetic of bounded naturals.
  have ei : idx_main_v4 (idx_main_v10 (idx_main_v11 (idx_main_v12 (ix4 b h n d)))) = ix3 b n (Attn.col 1 h d) :=
    funext fun a => Fin.ext (by
      have hb : b.val < 4096 := b.isLt
      have hh : h.val < 6 := h.isLt
      have hn : n.val < 64 := n.isLt
      have hd : d.val < 30 := d.isLt
      match a with
      | ⟨0, _⟩ => show ((((((((b.val * 64 + n.val) * 6 + h.val) * 30 + d.val) / 11520) * 64 + (((b.val * 64 + n.val) * 6 + h.val) * 30 + d.val) / 180 % 64) * 3 + (1 + 0)) * 6 + (((b.val * 64 + n.val) * 6 + h.val) * 30 + d.val) / 30 % 6) * 30 + (((b.val * 64 + n.val) * 6 + h.val) * 30 + d.val) % 30) / 34560 = b.val; omega
      | ⟨1, _⟩ => show ((((((((b.val * 64 + n.val) * 6 + h.val) * 30 + d.val) / 11520) * 64 + (((b.val * 64 + n.val) * 6 + h.val) * 30 + d.val) / 180 % 64) * 3 + (1 + 0)) * 6 + (((b.val * 64 + n.val) * 6 + h.val) * 30 + d.val) / 30 % 6) * 30 + (((b.val * 64 + n.val) * 6 + h.val) * 30 + d.val) % 30) / 540 % 64 = n.val; omega
      | ⟨2, _⟩ => show ((((((((b.val * 64 + n.val) * 6 + h.val) * 30 + d.val) / 11520) * 64 + (((b.val * 64 + n.val) * 6 + h.val) * 30 + d.val) / 180 % 64) * 3 + (1 + 0)) * 6 + (((b.val * 64 + n.val) * 6 + h.val) * 30 + d.val) / 30 % 6) * 30 + (((b.val * 64 + n.val) * 6 + h.val) * 30 + d.val) % 30) % 540 = 180 * 1 + 30 * h.val + d.val; omega)
  rw [ei]

/-- The value array. -/
theorem ref_v (x0 : (⟨S4096x64x180, .f32⟩ : BufTy).Contents (Elt Ideal)) (x3 : (⟨S540x180, .f32⟩ : BufTy).Contents (Elt Ideal)) (x4 : (⟨S540, .f32⟩ : BufTy).Contents (Elt Ideal)) (b : Fin 4096) (h : Fin 6) (n : Fin 64) (d : Fin 30) :
    val_main_v15 (F := Ideal) x0 x3 x4 (ix4 b h n d)
      = val_main_v3 (F := Ideal) x0 x3 x4 (ix3 b n (Attn.col 2 h d)) := by
  rw [val_main_v15_apply, val_main_v14_apply, val_main_v13_apply, val_main_v4_apply]
  -- The index composed by the four layout steps is (b, n, col 2 h d).  With P the row-major position of
  -- (b, n, h, d) in [4096, 64, 6, 30], the reshape that drops the unit axis reads (P / 11520, P / 180 % 64, 0,
  -- P / 30 % 6, P % 30), the slice moves the third coordinate to part 2, and the position of that index in
  -- [4096, 64, 3, 6, 30] is split over [4096, 64, 540] by / 34560, / 540 % 64 and % 540: each coordinate is
  -- arithmetic of bounded naturals.
  have ei : idx_main_v4 (idx_main_v13 (idx_main_v14 (idx_main_v15 (ix4 b h n d)))) = ix3 b n (Attn.col 2 h d) :=
    funext fun a => Fin.ext (by
      have hb : b.val < 4096 := b.isLt
      have hh : h.val < 6 := h.isLt
      have hn : n.val < 64 := n.isLt
      have hd : d.val < 30 := d.isLt
      match a with
      | ⟨0, _⟩ => show ((((((((b.val * 64 + n.val) * 6 + h.val) * 30 + d.val) / 11520) * 64 + (((b.val * 64 + n.val) * 6 + h.val) * 30 + d.val) / 180 % 64) * 3 + (2 + 0)) * 6 + (((b.val * 64 + n.val) * 6 + h.val) * 30 + d.val) / 30 % 6) * 30 + (((b.val * 64 + n.val) * 6 + h.val) * 30 + d.val) % 30) / 34560 = b.val; omega
      | ⟨1, _⟩ => show ((((((((b.val * 64 + n.val) * 6 + h.val) * 30 + d.val) / 11520) * 64 + (((b.val * 64 + n.val) * 6 + h.val) * 30 + d.val) / 180 % 64) * 3 + (2 + 0)) * 6 + (((b.val * 64 + n.val) * 6 + h.val) * 30 + d.val) / 30 % 6) * 30 + (((b.val * 64 + n.val) * 6 + h.val) * 30 + d.val) % 30) / 540 % 64 = n.val; omega
      | ⟨2, _⟩ => show ((((((((b.val * 64 + n.val) * 6 + h.val) * 30 + d.val) / 11520) * 64 + (((b.val * 64 + n.val) * 6 + h.val) * 30 + d.val) / 180 % 64) * 3 + (2 + 0)) * 6 + (((b.val * 64 + n.val) * 6 + h.val) * 30 + d.val) / 30 % 6) * 30 + (((b.val * 64 + n.val) * 6 + h.val) * 30 + d.val) % 30) % 540 = 180 * 2 + 30 * h.val + d.val; omega)
  rw [ei]

end Cert.ReferenceIdeal.RefValue

end
-- ==== Proof.RefLogit.lean ====
/-
  The reference's logits after the bias and the mask are added, read at (b, h, q, k): window b's
  `Attn.logit` of head h, with the bias array read at (h, q, k) and the mask of window `b mod 64`.
-/
import proofs.«411040_j36610301231822_3_alg».proof.Proof.Gen.ReferenceIdeal.Read
import proofs.«411040_j36610301231822_3_alg».proof.Proof.Spec
import proofs.«411040_j36610301231822_3_alg».proof.Proof.RefProj
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-- Splitting a row-major position of [4096,6,64,64] into coordinates of [64,64,6,64,64] and joining them again
    gives back the coordinates (b, h, q, k): both shapes have the same row-major position. -/
private theorem idx30_idx34 (b : Fin 4096) (h : Fin 6) (q k : Fin 64) :
    idx_main_v30 (idx_main_v34 (ix4 b h q k)) = ix4 b h q k := by
  have hb : b.val < 4096 := b.isLt
  have hh : h.val < 6 := h.isLt
  have hq : q.val < 64 := q.isLt
  have hk : k.val < 64 := k.isLt
  funext a
  match a with
  | ⟨0, _⟩ => exact Fin.ext (by show ((((((((b.val * 6 + h.val) * 64 + q.val) * 64 + k.val) / 1572864) * 64 + ((((b.val * 6 + h.val) * 64 + q.val) * 64 + k.val) / 24576 % 64)) * 6 + ((((b.val * 6 + h.val) * 64 + q.val) * 64 + k.val) / 4096 % 6)) * 64 + ((((b.val * 6 + h.val) * 64 + q.val) * 64 + k.val) / 64 % 64)) * 64 + ((((b.val * 6 + h.val) * 64 + q.val) * 64 + k.val) % 64)) / 24576 = b.val; omega)
  | ⟨1, _⟩ => exact Fin.ext (by show ((((((((b.val * 6 + h.val) * 64 + q.val) * 64 + k.val) / 1572864) * 64 + ((((b.val * 6 + h.val) * 64 + q.val) * 64 + k.val) / 24576 % 64)) * 6 + ((((b.val * 6 + h.val) * 64 + q.val) * 64 + k.val) / 4096 % 6)) * 64 + ((((b.val * 6 + h.val) * 64 + q.val) * 64 + k.val) / 64 % 64)) * 64 + ((((b.val * 6 + h.val) * 64 + q.val) * 64 + k.val) % 64)) / 4096 % 6 = h.val; omega)
  | ⟨2, _⟩ => exact Fin.ext (by show ((((((((b.val * 6 + h.val) * 64 + q.val) * 64 + k.val) / 1572864) * 64 + ((((b.val * 6 + h.val) * 64 + q.val) * 64 + k.val) / 24576 % 64)) * 6 + ((((b.val * 6 + h.val) * 64 + q.val) * 64 + k.val) / 4096 % 6)) * 64 + ((((b.val * 6 + h.val) * 64 + q.val) * 64 + k.val) / 64 % 64)) * 64 + ((((b.val * 6 + h.val) * 64 + q.val) * 64 + k.val) % 64)) / 64 % 64 = q.val; omega)
  | ⟨3, _⟩ => exact Fin.ext (by show ((((((((b.val * 6 + h.val) * 64 + q.val) * 64 + k.val) / 1572864) * 64 + ((((b.val * 6 + h.val) * 64 + q.val) * 64 + k.val) / 24576 % 64)) * 6 + ((((b.val * 6 + h.val) * 64 + q.val) * 64 + k.val) / 4096 % 6)) * 64 + ((((b.val * 6 + h.val) * 64 + q.val) * 64 + k.val) / 64 % 64)) * 64 + ((((b.val * 6 + h.val) * 64 + q.val) * 64 + k.val) % 64)) % 64 = k.val; omega)

/-- The bias is broadcast along the window axis: it is read at (h, q, k). -/
private theorem idx27_idx28 (b : Fin 4096) (h : Fin 6) (q k : Fin 64) :
    idx_main_v27 (idx_main_v28 (ix4 b h q k)) = ix3 h q k := by
  funext a
  match a with
  | ⟨0, _⟩ => rfl
  | ⟨1, _⟩ => rfl
  | ⟨2, _⟩ => rfl

/-- The mask is broadcast along the group and head axes: window b = 64 g + w reads mask w = b mod 64 at (q, k). -/
private theorem idx31_idx32_idx34 (b : Fin 4096) (h : Fin 6) (q k : Fin 64) :
    idx_main_v31 (idx_main_v32 (idx_main_v34 (ix4 b h q k))) = ix3 (Attn.wmod b) q k := by
  have hb : b.val < 4096 := b.isLt
  have hh : h.val < 6 := h.isLt
  have hq : q.val < 64 := q.isLt
  have hk : k.val < 64 := k.isLt
  funext a
  match a with
  | ⟨0, _⟩ => exact Fin.ext (by show (((b.val * 6 + h.val) * 64 + q.val) * 64 + k.val) / 24576 % 64 = b.val % 64; omega)
  | ⟨1, _⟩ => exact Fin.ext (by show (((b.val * 6 + h.val) * 64 + q.val) * 64 + k.val) / 64 % 64 = q.val; omega)
  | ⟨2, _⟩ => exact Fin.ext (by show (((b.val * 6 + h.val) * 64 + q.val) * 64 + k.val) % 64 = k.val; omega)

/-- The contraction reads the query at (b, h, q, d) and the key at (b, h, k, d). -/
private theorem lidx16 (b : Fin 4096) (h : Fin 6) (q k : Fin 64) (d : Fin 30) :
    lidx_main_v16 (ix4 b h q k) d = ix4 b h q d := by
  funext a
  match a with
  | ⟨0, _⟩ => rfl
  | ⟨1, _⟩ => rfl
  | ⟨2, _⟩ => rfl
  | ⟨3, _⟩ => rfl

private theorem ridx16 (b : Fin 4096) (h : Fin 6) (q k : Fin 64) (d : Fin 30) :
    ridx_main_v16 (ix4 b h q k) d = ix4 b h k d := by
  funext a
  match a with
  | ⟨0, _⟩ => rfl
  | ⟨1, _⟩ => rfl
  | ⟨2, _⟩ => rfl
  | ⟨3, _⟩ => rfl

theorem ref_logit (x0 : (⟨S4096x64x180, .f32⟩ : BufTy).Contents (Elt Ideal)) (x1 : (⟨S64x64, .i32⟩ : BufTy).Contents (Elt Ideal)) (x2 : (⟨S64x64x64, .f32⟩ : BufTy).Contents (Elt Ideal)) (x3 : (⟨S540x180, .f32⟩ : BufTy).Contents (Elt Ideal)) (x4 : (⟨S540, .f32⟩ : BufTy).Contents (Elt Ideal)) (x5 : (⟨S225x6, .f32⟩ : BufTy).Contents (Elt Ideal))
    (b : Fin 4096) (h : Fin 6) (q k : Fin 64) :
    val_main_v34 (F := Ideal) x0 x1 x2 x3 x4 x5 (ix4 b h q k)
      = Attn.logit (fun n j => val_main_v3 (F := Ideal) x0 x3 x4 (ix3 b n j))
          (fun q k => val_main_v26 (F := Ideal) x1 x5 (ix3 h q k))
          (fun q k => x2 (ix3 (Attn.wmod b) q k)) Attn.scaleQ (Attn.col 0 h) (Attn.col 1 h) q k := by
  unfold Attn.logit
  -- Read the two reshapes, the two additions, the two broadcasts of the mask and of the bias and the contraction
  -- at the index; the composed indices are (b, h, q, k), (b mod 64, q, k) and (h, q, k).
  rw [val_main_v34_apply, val_main_v33_apply, val_main_v30_apply, val_main_v32_apply, val_main_v31_apply,
    idx30_idx34, idx31_idx32_idx34, val_main_v29_apply, val_main_v16_apply, val_main_v28_apply,
    val_main_v27_apply, idx27_idx28]
  -- Term d of the contraction is the scaled query lane d of row q times the key lane d of row k.
  have hsum : (∑ d : Fin 30, val_main_v9 (F := Ideal) x0 x3 x4 (lidx_main_v16 (ix4 b h q k) d)
        * val_main_v12 (F := Ideal) x0 x3 x4 (ridx_main_v16 (ix4 b h q k) d))
      = ∑ d : Fin 30, (val_main_v3 (F := Ideal) x0 x3 x4 (ix3 b q (Attn.col 0 h d)) * Attn.scaleQ)
        * val_main_v3 (F := Ideal) x0 x3 x4 (ix3 b k (Attn.col 1 h d)) :=
    Finset.sum_congr rfl fun d _ => by rw [lidx16, ridx16, ref_q, ref_k]
  rw [hsum]
  rfl

end Cert.ReferenceIdeal.RefValue

end
-- ==== Proof.RefOut.lean ====
/-
  The reference's result read at (b, n, o) is window b's `Attn.outW`: the row maximum guarded by one more
  maximum with minus infinity is the row maximum; the sum that starts from the zero word is the sum; the
  reference multiplies value by weight where the specification multiplies weight by value.
-/
import proofs.«411040_j36610301231822_3_alg».proof.Proof.Gen.ReferenceIdeal.Read
import proofs.«411040_j36610301231822_3_alg».proof.Proof.Spec
import proofs.«411040_j36610301231822_3_alg».proof.Proof.RefProj
import proofs.«411040_j36610301231822_3_alg».proof.Proof.RefLogit
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-- The reduction over the key axis, at (b, h, q): the fold of the maximum over the 64 logits of that row. -/
theorem ref_v35 (x0 : (⟨S4096x64x180, .f32⟩ : BufTy).Contents (Elt Ideal)) (x1 : (⟨S64x64, .i32⟩ : BufTy).Contents (Elt Ideal)) (x2 : (⟨S64x64x64, .f32⟩ : BufTy).Contents (Elt Ideal)) (x3 : (⟨S540x180, .f32⟩ : BufTy).Contents (Elt Ideal)) (x4 : (⟨S540, .f32⟩ : BufTy).Contents (Elt Ideal)) (x5 : (⟨S225x6, .f32⟩ : BufTy).Contents (Elt Ideal))
    (b : Fin 4096) (h : Fin 6) (q : Fin 64) :
    val_main_v35 (F := Ideal) x0 x1 x2 x3 x4 x5 (ix3 b h q)
      = Attn.rowMax Attn.negInf (fun k => val_main_v34 (F := Ideal) x0 x1 x2 x3 x4 x5 (ix4 b h q k)) := by
  unfold val_main_v35
  generalize val_main_v34 (F := Ideal) x0 x1 x2 x3 x4 x5 = y
  rw [Host.reduce_eq_fold_single (FloatOps.maximumf (F := Ideal) (φ := .f32)) y _ Gen.reducesTo_S4096x6x64x64_S4096x6x64_d3 (by decide) Gen.h_S_]
  unfold Attn.rowMax
  refine congrArg (fun f => Finset.fold max Attn.negInf f (Finset.univ : Finset (Fin 64))) (funext fun k => ?_)
  exact congrArg y (funext fun a => Fin.ext (by match a with | ⟨0, _⟩ => rfl | ⟨1, _⟩ => rfl | ⟨2, _⟩ => rfl | ⟨3, _⟩ => rfl))

/-- The guarded row maximum: one more maximum with minus infinity changes nothing. -/
theorem ref_rowmax (x0 : (⟨S4096x64x180, .f32⟩ : BufTy).Contents (Elt Ideal)) (x1 : (⟨S64x64, .i32⟩ : BufTy).Contents (Elt Ideal)) (x2 : (⟨S64x64x64, .f32⟩ : BufTy).Contents (Elt Ideal)) (x3 : (⟨S540x180, .f32⟩ : BufTy).Contents (Elt Ideal)) (x4 : (⟨S540, .f32⟩ : BufTy).Contents (Elt Ideal)) (x5 : (⟨S225x6, .f32⟩ : BufTy).Contents (Elt Ideal))
    (b : Fin 4096) (h : Fin 6) (q : Fin 64) :
    val_main_v37 (F := Ideal) x0 x1 x2 x3 x4 x5 (ix3 b h q)
      = Attn.rowMax Attn.negInf (fun k => val_main_v34 (F := Ideal) x0 x1 x2 x3 x4 x5 (ix4 b h q k)) := by
  rw [val_main_v37_apply, val_main_v36_apply, ref_v35]
  exact Attn.max_rowMax _ _

/-- The exponential of a logit less its row's maximum, at (b, h, q, k). -/
theorem ref_exp (x0 : (⟨S4096x64x180, .f32⟩ : BufTy).Contents (Elt Ideal)) (x1 : (⟨S64x64, .i32⟩ : BufTy).Contents (Elt Ideal)) (x2 : (⟨S64x64x64, .f32⟩ : BufTy).Contents (Elt Ideal)) (x3 : (⟨S540x180, .f32⟩ : BufTy).Contents (Elt Ideal)) (x4 : (⟨S540, .f32⟩ : BufTy).Contents (Elt Ideal)) (x5 : (⟨S225x6, .f32⟩ : BufTy).Contents (Elt Ideal))
    (b : Fin 4096) (h : Fin 6) (q k : Fin 64) :
    val_main_v41 (F := Ideal) x0 x1 x2 x3 x4 x5 (ix4 b h q k)
      = Ideal.exp (val_main_v34 (F := Ideal) x0 x1 x2 x3 x4 x5 (ix4 b h q k)
          - Attn.rowMax Attn.negInf (fun k' => val_main_v34 (F := Ideal) x0 x1 x2 x3 x4 x5 (ix4 b h q k'))) := by
  rw [val_main_v41_apply, val_main_v40_apply, val_main_v39_apply, val_main_v38_apply]
  have e : idx_main_v38 (idx_main_v39 (ix4 b h q k)) = ix3 b h q :=
    funext fun a => by match a with | ⟨0, _⟩ => rfl | ⟨1, _⟩ => rfl | ⟨2, _⟩ => rfl
  rw [e, ref_rowmax]
  rfl

/-- The row's sum of exponentials, at (b, h, q): the sum starts from the zero word, which adds nothing. -/
theorem ref_sum (x0 : (⟨S4096x64x180, .f32⟩ : BufTy).Contents (Elt Ideal)) (x1 : (⟨S64x64, .i32⟩ : BufTy).Contents (Elt Ideal)) (x2 : (⟨S64x64x64, .f32⟩ : BufTy).Contents (Elt Ideal)) (x3 : (⟨S540x180, .f32⟩ : BufTy).Contents (Elt Ideal)) (x4 : (⟨S540, .f32⟩ : BufTy).Contents (Elt Ideal)) (x5 : (⟨S225x6, .f32⟩ : BufTy).Contents (Elt Ideal))
    (b : Fin 4096) (h : Fin 6) (q : Fin 64) :
    val_main_v42 (F := Ideal) x0 x1 x2 x3 x4 x5 (ix3 b h q)
      = ∑ k' : Fin 64, Ideal.exp (val_main_v34 (F := Ideal) x0 x1 x2 x3 x4 x5 (ix4 b h q k')
          - Attn.rowMax Attn.negInf (fun k'' => val_main_v34 (F := Ideal) x0 x1 x2 x3 x4 x5 (ix4 b h q k''))) := by
  rw [val_main_v42_apply]
  have z : (val_main_cst_3 (F := Ideal)) (Shape.Idx.first Gen.h_S_) = 0 := Ideal.ofBits_zero_f32
  rw [z, zero_add]
  refine Finset.sum_congr rfl fun k' _ => ?_
  have e : idx_main_v42 (ix3 b h q) k' = ix4 b h q k' :=
    funext fun a => by match a with | ⟨0, _⟩ => rfl | ⟨1, _⟩ => rfl | ⟨2, _⟩ => rfl | ⟨3, _⟩ => rfl
  rw [e, ref_exp]

/-- The softmax weight of key k in row q of head h of window b. -/
theorem ref_soft (x0 : (⟨S4096x64x180, .f32⟩ : BufTy).Contents (Elt Ideal)) (x1 : (⟨S64x64, .i32⟩ : BufTy).Contents (Elt Ideal)) (x2 : (⟨S64x64x64, .f32⟩ : BufTy).Contents (Elt Ideal)) (x3 : (⟨S540x180, .f32⟩ : BufTy).Contents (Elt Ideal)) (x4 : (⟨S540, .f32⟩ : BufTy).Contents (Elt Ideal)) (x5 : (⟨S225x6, .f32⟩ : BufTy).Contents (Elt Ideal))
    (b : Fin 4096) (h : Fin 6) (q k : Fin 64) :
    val_main_v45 (F := Ideal) x0 x1 x2 x3 x4 x5 (ix4 b h q k)
      = Attn.soft Attn.negInf (fun q k => val_main_v34 (F := Ideal) x0 x1 x2 x3 x4 x5 (ix4 b h q k)) q k := by
  rw [val_main_v45_apply, val_main_v44_apply, val_main_v43_apply]
  have e : idx_main_v43 (idx_main_v44 (ix4 b h q k)) = ix3 b h q :=
    funext fun a => by match a with | ⟨0, _⟩ => rfl | ⟨1, _⟩ => rfl | ⟨2, _⟩ => rfl
  rw [e, ref_sum, ref_exp]
  rfl

/-- The weighted values before the heads are laid side by side, at (b, h, d, n): the reference multiplies the value
    lane by the weight, the specification the weight by the value lane. -/
theorem ref_pv (x0 : (⟨S4096x64x180, .f32⟩ : BufTy).Contents (Elt Ideal)) (x1 : (⟨S64x64, .i32⟩ : BufTy).Contents (Elt Ideal)) (x2 : (⟨S64x64x64, .f32⟩ : BufTy).Contents (Elt Ideal)) (x3 : (⟨S540x180, .f32⟩ : BufTy).Contents (Elt Ideal)) (x4 : (⟨S540, .f32⟩ : BufTy).Contents (Elt Ideal)) (x5 : (⟨S225x6, .f32⟩ : BufTy).Contents (Elt Ideal))
    (b : Fin 4096) (h : Fin 6) (d : Fin 30) (n : Fin 64) :
    val_main_v46 (F := Ideal) x0 x1 x2 x3 x4 x5 (ix4 b h d n)
      = Attn.mix (Attn.soft Attn.negInf (fun q k => val_main_v34 (F := Ideal) x0 x1 x2 x3 x4 x5 (ix4 b h q k)))
          (fun n j => val_main_v3 (F := Ideal) x0 x3 x4 (ix3 b n j)) (Attn.col 2 h) n d := by
  rw [val_main_v46_apply]
  unfold Attn.mix
  refine Finset.sum_congr rfl fun k _ => ?_
  have el : lidx_main_v46 (ix4 b h d n) k = ix4 b h k d :=
    funext fun a => by match a with | ⟨0, _⟩ => rfl | ⟨1, _⟩ => rfl | ⟨2, _⟩ => rfl | ⟨3, _⟩ => rfl
  have er : ridx_main_v46 (ix4 b h d n) k = ix4 b h n k :=
    funext fun a => by match a with | ⟨0, _⟩ => rfl | ⟨1, _⟩ => rfl | ⟨2, _⟩ => rfl | ⟨3, _⟩ => rfl
  rw [el, er, ref_v, ref_soft]
  exact mul_comm _ _

/-- Channel c of the mixed values is lane c mod 30 of head c div 30. -/
theorem ref_mix (x0 : (⟨S4096x64x180, .f32⟩ : BufTy).Contents (Elt Ideal)) (x1 : (⟨S64x64, .i32⟩ : BufTy).Contents (Elt Ideal)) (x2 : (⟨S64x64x64, .f32⟩ : BufTy).Contents (Elt Ideal)) (x3 : (⟨S540x180, .f32⟩ : BufTy).Contents (Elt Ideal)) (x4 : (⟨S540, .f32⟩ : BufTy).Contents (Elt Ideal)) (x5 : (⟨S225x6, .f32⟩ : BufTy).Contents (Elt Ideal))
    (b : Fin 4096) (n : Fin 64) (c : Fin 180) :
    val_main_v48 (F := Ideal) x0 x1 x2 x3 x4 x5 (ix3 b n c)
      = Attn.mix (Attn.soft Attn.negInf (fun q k => val_main_v34 (F := Ideal) x0 x1 x2 x3 x4 x5 (ix4 b (Attn.chHead c) q k)))
          (fun n j => val_main_v3 (F := Ideal) x0 x3 x4 (ix3 b n j)) (Attn.col 2 (Attn.chHead c)) n (Attn.chLane c) := by
  rw [val_main_v48_apply]
  have e48 : idx_main_v48 (ix3 b n c) = ix4 b n (Attn.chHead c) (Attn.chLane c) := by
    have hb : b.val < 4096 := b.isLt
    have hn : n.val < 64 := n.isLt
    have hc : c.val < 180 := c.isLt
    funext a
    refine Fin.ext ?_
    match a with
    | ⟨0, _⟩ => show ((b.val * 64 + n.val) * 180 + c.val) / 11520 = b.val; omega
    | ⟨1, _⟩ => show ((b.val * 64 + n.val) * 180 + c.val) / 180 % 64 = n.val; omega
    | ⟨2, _⟩ => show ((b.val * 64 + n.val) * 180 + c.val) / 30 % 6 = c.val / 30; omega
    | ⟨3, _⟩ => show ((b.val * 64 + n.val) * 180 + c.val) % 30 = c.val % 30; omega
  rw [e48, val_main_v47_apply]
  have e47 : idx_main_v47 (ix4 b n (Attn.chHead c) (Attn.chLane c)) = ix4 b (Attn.chHead c) (Attn.chLane c) n :=
    funext fun a => by match a with | ⟨0, _⟩ => rfl | ⟨1, _⟩ => rfl | ⟨2, _⟩ => rfl | ⟨3, _⟩ => rfl
  rw [e47, ref_pv]

theorem ref_out (x0 : (⟨S4096x64x180, .f32⟩ : BufTy).Contents (Elt Ideal)) (x1 : (⟨S64x64, .i32⟩ : BufTy).Contents (Elt Ideal)) (x2 : (⟨S64x64x64, .f32⟩ : BufTy).Contents (Elt Ideal)) (x3 : (⟨S540x180, .f32⟩ : BufTy).Contents (Elt Ideal)) (x4 : (⟨S540, .f32⟩ : BufTy).Contents (Elt Ideal)) (x5 : (⟨S225x6, .f32⟩ : BufTy).Contents (Elt Ideal)) (x6 : (⟨S180x180, .f32⟩ : BufTy).Contents (Elt Ideal)) (x7 : (⟨S180, .f32⟩ : BufTy).Contents (Elt Ideal))
    (b : Fin 4096) (n : Fin 64) (o : Fin 180) :
    val_main_v52 (F := Ideal) x0 x1 x2 x3 x4 x5 x6 x7 (ix3 b n o)
      = Attn.outW (fun n c => x0 (ix3 b n c)) (fun q k => x2 (ix3 (Attn.wmod b) q k))
          (fun j c => x3 (ix2 j c)) (fun j => x4 (ix1 j))
          (fun h q k => val_main_v26 (F := Ideal) x1 x5 (ix3 h q k))
          (fun o c => x6 (ix2 o c)) (fun o => x7 (ix1 o)) Attn.scaleQ Attn.negInf n o := by
  rw [val_main_v52_apply, val_main_v49_apply, val_main_v51_apply, val_main_v50_apply]
  have e7 : idx_main_v50 (idx_main_v51 (ix3 b n o)) = ix1 o :=
    funext fun a => by match a with | ⟨0, _⟩ => rfl
  -- the fused projection and every head's logits are the specification's
  have hQ : (fun n j => val_main_v3 (F := Ideal) x0 x3 x4 (ix3 b n j))
      = Attn.proj (fun n c => x0 (ix3 b n c)) (fun j c => x3 (ix2 j c)) (fun j => x4 (ix1 j)) :=
    funext fun n => funext fun j => ref_proj x0 x3 x4 b n j
  have hL : ∀ h : Fin 6, (fun q k => val_main_v34 (F := Ideal) x0 x1 x2 x3 x4 x5 (ix4 b h q k))
      = Attn.logit (Attn.proj (fun n c => x0 (ix3 b n c)) (fun j c => x3 (ix2 j c)) (fun j => x4 (ix1 j)))
          (fun q k => val_main_v26 (F := Ideal) x1 x5 (ix3 h q k))
          (fun q k => x2 (ix3 (Attn.wmod b) q k)) Attn.scaleQ (Attn.col 0 h) (Attn.col 1 h) := fun h =>
    funext fun q => funext fun k => (ref_logit x0 x1 x2 x3 x4 x5 b h q k).trans (by rw [hQ])
  rw [e7]
  unfold Attn.outW Attn.headOut
  refine congrArg (· + x7 (ix1 o)) (Finset.sum_congr rfl fun c _ => ?_)
  have el : lidx_main_v49 (ix3 b n o) c = ix3 b n c :=
    funext fun a => by match a with | ⟨0, _⟩ => rfl | ⟨1, _⟩ => rfl | ⟨2, _⟩ => rfl
  have er : ridx_main_v49 (ix3 b n o) c = ix2 o c :=
    funext fun a => by match a with | ⟨0, _⟩ => rfl | ⟨1, _⟩ => rfl
  rw [el, er, ref_mix, hL, hQ]

end Cert.ReferenceIdeal.RefValue

end
-- ==== Proof.lean ====
/- The proof of `Cert.Claim`: a windowed attention kernel (32 windows of 64 tokens per grid point, six heads
   of 30 lanes, relative-position bias and a window mask added to the logits, row softmax, output projection)
   against its reference over all 4096 windows at once.

   At the ideal values both programs compute, entry by entry, ONE function of the arguments: `Attn.G`
   (Proof/Spec.lean, Proof/SpecArr.lean), whose entry (b, n, o) is window b's `Attn.outW`.  A change of float
   format is the identity, the kernel's products into a zero accumulator and the reference's contractions are
   the same finite sums, the scale is the same f32 word on both sides, and the bias array is the same chain of
   host operations of the same two arguments in both programs, so it is carried as it stands.  The only laws
   used are re-indexing of finite sums, commutativity of the product (the reference multiplies value by
   weight), `0 + s = s` for the sum's starting value and `max (-inf) r = r` for a row maximum folded from
   `-inf`; none needs finiteness, so the precondition is never opened.

   Kernel side: Proof/KProj.lean (the fused projection of a block), Proof/KHead.lean (one head),
   Proof/KFin.lean (joining the heads and the output projection), Proof/KBody.lean (the body's stored value is
   `Attn.outW` of the staged blocks), Proof/KHost.lean (the staged arrays in terms of the arguments),
   Proof/KBlocks.lean (the 128 points' blocks tile the result).  Reference side: Proof/RefProj.lean,
   Proof/RefLogit.lean, Proof/RefOut.lean.  The frames are the generated ones; the idealization rewrote
   nothing, so `preserves` is trivial. -/
import proofs.«411040_j36610301231822_3_alg».proof.Defs
import proofs.«411040_j36610301231822_3_alg».proof.Proof.Gen.Kernel
import proofs.«411040_j36610301231822_3_alg».proof.Proof.Gen.Kernel.Skeleton
import proofs.«411040_j36610301231822_3_alg».proof.Proof.Gen.Kernel.Launch
import proofs.«411040_j36610301231822_3_alg».proof.Proof.Gen.Kernel.Points
import proofs.«411040_j36610301231822_3_alg».proof.Proof.Gen.Kernel.Frame
import proofs.«411040_j36610301231822_3_alg».proof.Proof.Gen.KernelIdeal
import proofs.«411040_j36610301231822_3_alg».proof.Proof.Gen.KernelIdeal.Skeleton
import proofs.«411040_j36610301231822_3_alg».proof.Proof.Gen.KernelIdeal.Launch
import proofs.«411040_j36610301231822_3_alg».proof.Proof.Gen.KernelIdeal.Points
import proofs.«411040_j36610301231822_3_alg».proof.Proof.Gen.KernelIdeal.Frame
import proofs.«411040_j36610301231822_3_alg».proof.Proof.Gen.ReferenceIdeal
import proofs.«411040_j36610301231822_3_alg».proof.Proof.Gen.Pre_finite_inputs
import proofs.«411040_j36610301231822_3_alg».proof.Proof.Gen.KernelIdeal.Value
import proofs.«411040_j36610301231822_3_alg».proof.Proof.Gen.ReferenceIdeal.Run
import proofs.«411040_j36610301231822_3_alg».proof.Proof.Gen.ReferenceIdeal.Read
import proofs.«411040_j36610301231822_3_alg».proof.Proof.KBlocks
import proofs.«411040_j36610301231822_3_alg».proof.Proof.RefOut
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Attn.G` of the (agreeing) arguments. -/
theorem algebraic : Cert.algebraic_KernelIdeal_ReferenceIdeal := by
  intro m ρ m' ρ' _ hagree
  refine ⟨fun c => Cert.KernelIdeal.KValue.GK m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v52_eq, e0, e1, e2, e3, e4, e5, e6, e7]
  funext i
  obtain ⟨b, n, o, rfl⟩ : ∃ (b : Fin 4096) (n : Fin 64) (o : Fin 180), i = ix3 b n o :=
    ⟨⟨(i 0).val, (i 0).isLt⟩, ⟨(i 1).val, (i 1).isLt⟩, ⟨(i 2).val, (i 2).isLt⟩,
      funext fun a => by match a with | ⟨0, _⟩ => rfl | ⟨1, _⟩ => rfl | ⟨2, _⟩ => rfl⟩
  exact Cert.ReferenceIdeal.RefValue.ref_out _ _ _ _ _ _ _ _ b n o

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
